-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S128x128 : Shape := ⟨2, ![128, 128]⟩
abbrev S128x50 : Shape := ⟨2, ![128, 50]⟩
abbrev S128 : Shape := ⟨1, ![128]⟩
abbrev S_ : Shape := ⟨0, ![]⟩
abbrev S1x800000 : Shape := ⟨2, ![1, 800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S800000x50 : S_.BroadcastsInDim S800000x50 (![] : Fin 0 → Fin S800000x50.rank)
  reducesTo_S800000x50_S_d0_1 : S800000x50.ReducesTo [0, 1] S_
  bcast_S_S128x128 : S_.BroadcastsInDim S128x128 (![] : Fin 0 → Fin S128x128.rank)
  reducesTo_S128x128_S_d0_1 : S128x128.ReducesTo [0, 1] S_
  bcast_S_S128x50 : S_.BroadcastsInDim S128x50 (![] : Fin 0 → Fin S128x50.rank)
  reducesTo_S128x50_S_d0_1 : S128x50.ReducesTo [0, 1] S_
  bcast_S_S128 : S_.BroadcastsInDim S128 (![] : Fin 0 → Fin S128.rank)
  reducesTo_S128_S_d0 : S128.ReducesTo [0] S_
  slices_S2x800000_S1x800000_1_0 : S2x800000.Slices ![1, 0] S1x800000
  shapeCasts_S1x800000_S800000 : S1x800000.ShapeCasts S800000

variable [Facts]

def fn_part3 {F : FTy → Type} [FloatOps F] (main_arg1 : IVec S2x800000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_c_19 : IVec S_ 1 := constantI S_ 1 1#1
  let main_v53 : IVec S_ 1 := (fun x v => Host.reduce IntOp.andi x v reducesTo_S800000_S_d0 h_S_) main_v52 main_c_19
  let main_v54 : IVec S_ 1 := andi main_v48 main_v53
  let main_v55 : IVec S1x800000 32 := (extractStridedSlice S1x800000 ![1, 0] · slices_S2x800000_S1x800000_1_0) main_arg1
  let main_v56 : IVec S800000 32 := shapeCast S800000 main_v55 shapeCasts_S1x800000_S800000
  let main_c_20 : IVec S_ 32 := constantI S_ 32 50000#32
  let main_v57 : IVec S800000 32 := broadcastInDim S800000 ![] bcast_S_S800000 main_c_20
  let main_v58 : IVec S800000 1 := cmpi .slt main_v56 main_v57
  let main_c_21 : IVec S_ 1 := constantI S_ 1 1#1
  let main_v59 : IVec S_ 1 := (fun x v => Host.reduce IntOp.andi x v reducesTo_S800000_S_d0 h_S_) main_v58 main_c_21
  let main_v60 : IVec S_ 1 := andi main_v54 main_v59
  main_v60

def fn_part2 {F : FTy → Type} [FloatOps F] (main_arg1 : IVec S2x800000 32) (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : IVec S1x800000 32 := (extractStridedSlice S1x800000 ![1, 0] · slices_S2x800000_S1x800000_1_0) main_arg1
  let main_v50 : IVec S800000 32 := shapeCast S800000 main_v49 shapeCasts_S1x800000_S800000
  let main_c_18 : IVec S_ 32 := constantI S_ 32 0#32
  fn_part3 (F := F) main_arg1 main_v48 main_v50 main_c_18

def fn_part1 {F : FTy → Type} [FloatOps F] (main_arg1 : IVec S2x800000 32) (main_arg5 : FVec F S128x50 .f32) (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x50 .f32 := Host.absf main_arg5
  let main_cst_6 : FVec F S_ .f32 := constant S_ .f32 0x7F800000#32
  let main_v20 : FVec F S128x50 .f32 := broadcastInDim S128x50 ![] bcast_S_S128x50 main_cst_6
  let main_v21 : IVec S128x50 1 := cmpf .olt main_v19 main_v20
  let main_c_7 : IVec S_ 1 := constantI S_ 1 1#1
  let main_v22 : IVec S_ 1 := (fun x v => Host.reduce IntOp.andi x v reducesTo_S128x50_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x800000 32) (main_arg2 : FVec F S800000 .f32) (main_arg3 : FVec F S800000x50 .f32) (main_arg4 : FVec F S128x128 .f32) (main_arg5 : FVec F S128x50 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000x50 .f32 := Host.absf main_arg3
  let main_cst_2 : FVec F S_ .f32 := constant S_ .f32 0x7F800000#32
  let main_v10 : FVec F S800000x50 .f32 := broadcastInDim S800000x50 ![] bcast_S_S800000x50 main_cst_2
  let main_v11 : IVec S800000x50 1 := cmpf .olt main_v9 main_v10
  let main_c_3 : IVec S_ 1 := constantI S_ 1 1#1
  let main_v12 : IVec S_ 1 := (fun x v => Host.reduce IntOp.andi x v reducesTo_S800000x50_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S128x128 : Shape := ⟨2, ![128, 128]⟩
abbrev S128x50 : Shape := ⟨2, ![128, 50]⟩
abbrev S128 : Shape := ⟨1, ![128]⟩
abbrev S5000x128 : Shape := ⟨2, ![5000, 128]⟩
abbrev S1x800000 : Shape := ⟨2, ![1, 800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50x128 : Shape := ⟨2, ![50, 128]⟩
abbrev S1x128 : Shape := ⟨2, ![1, 128]⟩
abbrev S4000x1 : Shape := ⟨2, ![4000, 1]⟩
abbrev S4000x50 : Shape := ⟨2, ![4000, 50]⟩
abbrev S4000x128 : Shape := ⟨2, ![4000, 128]⟩

abbrev nBuf : Space → Nat
  | .hbm => 53
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S800000x50, .f32⟩
  | .hbm, ⟨4, _⟩ => ⟨S128x128, .f32⟩
  | .hbm, ⟨5, _⟩ => ⟨S128x50, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S50000x128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S1, .i32⟩
  | .hbm, ⟨26, _⟩ => ⟨S_, .i32⟩
  | .hbm, ⟨27, _⟩ => ⟨S800000x1, .i32⟩
  | .hbm, ⟨28, _⟩ => ⟨S800000x1, .i1⟩
  | .hbm, ⟨29, _⟩ => ⟨S1x1, .i32⟩
  | .hbm, ⟨30, _⟩ => ⟨S800000x1, .i32⟩
  | .hbm, ⟨31, _⟩ => ⟨S800000x1, .i1⟩
  | .hbm, ⟨32, _⟩ => ⟨S800000x1, .i1⟩
  | .hbm, ⟨33, _⟩ => ⟨S_, .i1⟩
  | .hbm, ⟨34, _⟩ => ⟨S800000, .i1⟩
  | .hbm, ⟨35, _⟩ => ⟨S800000x128, .f32⟩
  | .hbm, ⟨36, _⟩ => ⟨S800000x128, .i1⟩
  | .hbm, ⟨37, _⟩ => ⟨S_, .f32⟩
  | .hbm, ⟨38, _⟩ => ⟨S800000x128, .f32⟩
  | .hbm, ⟨39, _⟩ => ⟨S800000x128, .f32⟩
  | .hbm, ⟨40, _⟩ => ⟨S800000x1, .f32⟩
  | .hbm, ⟨41, _⟩ => ⟨S50x128, .f32⟩
  | .hbm, ⟨42, _⟩ => ⟨S128x128, .f32⟩
  | .hbm, ⟨43, _⟩ => ⟨S1x128, .f32⟩
  | .hbm, ⟨44, _⟩ => ⟨S1x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S128x128, .f32⟩
  | .hbm, ⟨51, _⟩ => ⟨S1x128, .f32⟩
  | .hbm, ⟨52, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S4000x1, .f32⟩
  | .local _ .vmem, ⟨6, _⟩ => ⟨S4000x1, .f32⟩
  | .local _ .vmem, ⟨7, _⟩ => ⟨S4000x50, .f32⟩
  | .local _ .vmem, ⟨8, _⟩ => ⟨S4000x50, .f32⟩
  | .local _ .vmem, ⟨9, _⟩ => ⟨S4000x128, .f32⟩
  | .local _ .vmem, ⟨10, _⟩ => ⟨S4000x128, .f32⟩
  | .local _ .vmem, ⟨11, _⟩ => ⟨S50x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S4000x128, .f32⟩
  | .local _ .vmem, ⟨16, _⟩ => ⟨S4000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x50 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S50x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x800000_S1x800000_1_0 : S2x800000.Slices ![1, 0] S1x800000
  shapeCasts_S1x800000_S800000 : S1x800000.ShapeCasts S800000
  slices_S2x800000_S1x800000_0_0 : S2x800000.Slices ![0, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S800000_S800000x1 : S800000.ShapeCasts S800000x1
  transposes_S128x50_S50x128_1_0 : S128x50.Transposes [1, 0] S50x128
  shapeCasts_S128_S1x128 : S128.ShapeCasts S1x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x50_S4000x50_0_0 : ∀ a, (![0, 0] : Fin 2 → Nat) a + S4000x50.size a ≤ S4000x50.size a
  h_S4000x50 : 0 < S4000x50.numel
  inb_S50x128_S50x128_0_0 : ∀ a, (![0, 0] : Fin 2 → Nat) a + S50x128.size a ≤ S50x128.size a
  h_S50x128 : 0 < S50x128.numel
  shapeCasts_S50x128_S50x128 : S50x128.ShapeCasts S50x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bcast_S_S50000x128 : S_.BroadcastsInDim S50000x128 (![] : Fin 0 → Fin S50000x128.rank)
  shapeCasts_S5000x128_S5000x128 : S5000x128.ShapeCasts S5000x128
  broadcasts_S1x128_S5000x128 : S1x128.Broadcasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  dot_S4000x50_S50x128_S4000x128_1_0_0_1_n_n_wf : DotDims.WF S4000x50 S50x128 S4000x128 [1] [0] [0] [1] [] []
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x1.size a ≤ S800000x1.size a
  hwx1_0 : ∀ i : grid1.Coords, EltTy.bits .f32 = 32 ∨ (Rect.block (s := S800000x1) S4000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x50.size a ≤ S800000x50.size a
  hwx1_1 : ∀ i : grid1.Coords, EltTy.bits .f32 = 32 ∨ (Rect.block (s := S800000x50) S4000x50.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S800000x128.size a
  hwx1_2 : ∀ i : grid1.Coords, EltTy.bits .f32 = 32 ∨ (Rect.block (s := S800000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S50x128.size a ≤ S50x128.size a
  hwx1_3 : ∀ i : grid1.Coords, EltTy.bits .f32 = 32 ∨ (Rect.block (s := S50x128) S50x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S800000x128.size a
  hwx1_7 : ∀ i : grid1.Coords, EltTy.bits .f32 = 32 ∨ (Rect.block (s := S800000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x50_S50x128_S4000x128_1_0_0_1_n_n : DotDims S4000x50 S50x128 S4000x128 where
  lhsContracting := [1]
  rhsContracting := [0]
  lhsNonContracting := [0]
  rhsNonContracting := [1]
  lhsBatch := []
  rhsBatch := []
  wf := dot_S4000x50_S50x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S4000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S4000x50.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S50x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S128x128 : Shape := ⟨2, ![128, 128]⟩
abbrev S128x50 : Shape := ⟨2, ![128, 50]⟩
abbrev S128 : Shape := ⟨1, ![128]⟩
abbrev S_ : Shape := ⟨0, ![]⟩
abbrev S50x128 : Shape := ⟨2, ![50, 128]⟩
abbrev S800000x128 : Shape := ⟨2, ![800000, 128]⟩
abbrev S1x128 : Shape := ⟨2, ![1, 128]⟩
abbrev S800000x1 : Shape := ⟨2, ![800000, 1]⟩
abbrev S1x800000 : Shape := ⟨2, ![1, 800000]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S800000x50, .f32⟩
  | .hbm, ⟨4, _⟩ => ⟨S128x128, .f32⟩
  | .hbm, ⟨5, _⟩ => ⟨S128x50, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S50000x128, .f32⟩
  | .hbm, ⟨13, _⟩ => ⟨S_, .f32⟩
  | .hbm, ⟨14, _⟩ => ⟨S800000, .f32⟩
  | .hbm, ⟨15, _⟩ => ⟨S800000, .f32⟩
  | .hbm, ⟨16, _⟩ => ⟨S_, .f32⟩
  | .hbm, ⟨17, _⟩ => ⟨S800000, .f32⟩
  | .hbm, ⟨18, _⟩ => ⟨S800000, .f32⟩
  | .hbm, ⟨19, _⟩ => ⟨S800000, .f32⟩
  | .hbm, ⟨20, _⟩ => ⟨S_, .f32⟩
  | .hbm, ⟨21, _⟩ => ⟨S800000, .f32⟩
  | .hbm, ⟨22, _⟩ => ⟨S800000, .f32⟩
  | .hbm, ⟨23, _⟩ => ⟨S_, .f32⟩
  | .hbm, ⟨24, _⟩ => ⟨S800000, .f32⟩
  | .hbm, ⟨25, _⟩ => ⟨S800000, .f32⟩
  | .hbm, ⟨26, _⟩ => ⟨S50x128, .f32⟩
  | .hbm, ⟨27, _⟩ => ⟨S800000x128, .f32⟩
  | .hbm, ⟨28, _⟩ => ⟨S1x128, .f32⟩
  | .hbm, ⟨29, _⟩ => ⟨S800000x128, .f32⟩
  | .hbm, ⟨30, _⟩ => ⟨S800000x128, .f32⟩
  | .hbm, ⟨31, _⟩ => ⟨S_, .f32⟩
  | .hbm, ⟨32, _⟩ => ⟨S800000x128, .f32⟩
  | .hbm, ⟨33, _⟩ => ⟨S800000x128, .f32⟩
  | .hbm, ⟨34, _⟩ => ⟨S800000x128, .f32⟩
  | .hbm, ⟨35, _⟩ => ⟨S800000x128, .f32⟩
  | .hbm, ⟨36, _⟩ => ⟨S800000x128, .i1⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S800000x128, .f32⟩
  | .hbm, ⟨47, _⟩ => ⟨S800000x128, .f32⟩
  | .hbm, ⟨48, _⟩ => ⟨S128x128, .f32⟩
  | .hbm, ⟨49, _⟩ => ⟨S800000x128, .f32⟩
  | .hbm, ⟨50, _⟩ => ⟨S1x128, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S800000x128, .f32⟩
  | .hbm, ⟨55, _⟩ => ⟨S800000x128, .f32⟩
  | .hbm, ⟨56, _⟩ => ⟨S800000x128, .f32⟩
  | .hbm, ⟨57, _⟩ => ⟨S800000x128, .f32⟩
  | .hbm, ⟨58, _⟩ => ⟨S800000x128, .i1⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S800000x128, .f32⟩
  | .hbm, ⟨63, _⟩ => ⟨S800000x128, .f32⟩
  | .hbm, ⟨64, _⟩ => ⟨S800000x128, .f32⟩
  | .hbm, ⟨65, _⟩ => ⟨S800000x128, .f32⟩
  | .hbm, ⟨66, _⟩ => ⟨S800000x128, .f32⟩
  | .hbm, ⟨67, _⟩ => ⟨S_, .f32⟩
  | .hbm, ⟨68, _⟩ => ⟨S800000x128, .f32⟩
  | .hbm, ⟨69, _⟩ => ⟨S800000x128, .f32⟩
  | .hbm, ⟨70, _⟩ => ⟨S800000x1, .f32⟩
  | .hbm, ⟨71, _⟩ => ⟨S800000x128, .f32⟩
  | .hbm, ⟨72, _⟩ => ⟨S800000x128, .f32⟩
  | .hbm, ⟨73, _⟩ => ⟨S1x800000, .i32⟩
  | .hbm, ⟨74, _⟩ => ⟨S800000, .i32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S800000x128, .f32⟩
  | .hbm, ⟨85, _⟩ => ⟨S1x800000, .i32⟩
  | .hbm, ⟨86, _⟩ => ⟨S800000, .i32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S50000x128, .f32⟩
  | .hbm, ⟨92, _⟩ => ⟨S128x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_v16 : Ref sig .tc := ⟨.hbm, 44, rfl⟩
abbrev main_cst_3 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_v24 : Ref sig .tc := ⟨.hbm, 66, rfl⟩
abbrev main_cst_4 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_c : Ref sig .tc := ⟨.hbm, 75, rfl⟩
abbrev main_v32 : Ref sig .tc := ⟨.hbm, 76, rfl⟩
abbrev main_v33 : Ref sig .tc := ⟨.hbm, 77, rfl⟩
abbrev main_c_5 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_6 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩

abbrev nD : Nat := 1
abbrev τ : Topo := Topo.v7x

variable {F : FTy → Type} [FloatOps F]

class Facts₀ : Prop where
  transposes_S128x128_S128x128_1_0 : S128x128.Transposes [1, 0] S128x128
  bcast_S_S800000 : S_.BroadcastsInDim S800000 (![] : Fin 0 → Fin S800000.rank)
  transposes_S128x50_S50x128_1_0 : S128x50.Transposes [1, 0] S50x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  slices_S2x800000_S1x800000_1_0 : S2x800000.Slices ![1, 0] S1x800000
  shapeCasts_S1x800000_S800000 : S1x800000.ShapeCasts S800000
  slices_S2x800000_S1x800000_0_0 : S2x800000.Slices ![0, 0] S1x800000
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  dot_S800000x50_S50x128_S800000x128_1_0_0_1_n_n_wf : DotDims.WF S800000x50 S50x128 S800000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x50_S50x128_S800000x128_1_0_0_1_n_n : DotDims S800000x50 S50x128 S800000x128 where
  lhsContracting := [1]
  rhsContracting := [0]
  lhsNonContracting := [0]
  rhsNonContracting := [1]
  lhsBatch := []
  rhsBatch := []
  wf := dot_S800000x50_S50x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  What both programs compute, index by index, over the extended reals.

  A continuous-filter convolution layer on a graph of 50000 nodes and 800000 edges with 128 channels:
    h1   = h · lin1ᵀ                                              (a dense layer on the nodes)
    W    = (ssp (ssp (edge_attr · w1ᵀ + b1) · w2ᵀ + b2)) ⊙ cut (edge_weight)   (the per-edge filter)
    msg  = W ⊙ h1[src]
    agg  = the sum of msg over the edges that end in each node
    out  = (h1 + agg) · lin2ᵀ + lin2_b.
  `ssp` is the shifted softplus, log (1 + eᶻ) − f32 (ln 2), in the overflow-safe form both programs use,
  max z 0 + log1p (exp (−|z − 0|)); `cut` is the cosine cutoff ½ (cos (x · π/10) + 1).
  The gather h1[src] and the scatter-add are the same host operations in both programs and stay opaque here.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev Arr (a b : Nat) : Type := (⟨2, ![a, b]⟩ : Shape).Idx → EReal

/-! ## A dense layer: rows of `A` against columns of `B` -/

/-- Entry (r, c) of the matrix product A · B. -/
def denseAt {R K C : Nat} (A : Arr R K) (B : Arr K C) (r : Fin R) (c : Fin C) : EReal :=
  ∑ k : Fin K, A (ix2 r k) * B (ix2 k c)

/-- The matrix product A · B as an array. -/
def dense {R K C : Nat} (A : Arr R K) (B : Arr K C) : Arr R C := fun i => denseAt A B (i 0) (i 1)

theorem dense_apply {R K C : Nat} (A : Arr R K) (B : Arr K C) (r : Fin R) (c : Fin C) :
    dense A B (ix2 r c) = denseAt A B r c := rfl

/-! ## The scalar functions -/

/-- f32 (ln 2), the shift of the softplus. -/
abbrev ln2w : EReal := Ideal.ofBits .f32 0x3F317218#32
/-- f32 (π/10) as the kernel folds it: 2635359 / 2²³. -/
abbrev piTenthW : EReal := Ideal.ofBits .f32 0x3EA0D97C#32
/-- f32 (π) = 13176795 / 2²². -/
abbrev piW : EReal := Ideal.ofBits .f32 0x40490FDB#32
/-- 10. -/
abbrev tenW : EReal := Ideal.ofBits .f32 0x41200000#32
/-- 1. -/
abbrev oneW : EReal := Ideal.ofBits .f32 0x3F800000#32
/-- ½. -/
abbrev halfW : EReal := Ideal.ofBits .f32 0x3F000000#32

/-- The shifted softplus log (1 + eᶻ) − f32 (ln 2), in its overflow-safe form. -/
def ssp (z : EReal) : EReal :=
  (max z 0 + Ideal.log1p (Ideal.exp (-(max (z - 0) (-(z - 0)))))) - ln2w

/-- The cosine cutoff ½ (cos (x · π/10) + 1), with π/10 the folded word. -/
def cut (x : EReal) : EReal := halfW * (Ideal.cos (x * piTenthW) + oneW)

/-! ## The per-edge message -/

/-- The hidden layer of the filter network at edge `e`, channel `k`. -/
def hidAt (ea : Arr 800000 50) (w1t : Arr 50 128) (b1 : Fin 128 → EReal) (e : Fin 800000) (k : Fin 128) : EReal :=
  ssp (denseAt ea w1t e k + b1 k)

/-- The filter's second pre-activation at edge `e`, channel `f`. -/
def z2At (ea : Arr 800000 50) (w1t : Arr 50 128) (b1 : Fin 128 → EReal) (w2t : Arr 128 128) (b2 : Fin 128 → EReal)
    (e : Fin 800000) (f : Fin 128) : EReal :=
  (∑ k : Fin 128, hidAt ea w1t b1 e k * w2t (ix2 k f)) + b2 f

/-- The message of edge `e` in channel `f`: the filter, cut off by the edge's length, times the gathered feature. -/
def msgAt (ew : Fin 800000 → EReal) (ea : Arr 800000 50) (g : Arr 800000 128) (w1t : Arr 50 128) (b1 : Fin 128 → EReal)
    (w2t : Arr 128 128) (b2 : Fin 128 → EReal) (e : Fin 800000) (f : Fin 128) : EReal :=
  (ssp (z2At ea w1t b1 w2t b2 e f) * cut (ew e)) * g (ix2 e f)

/-- The messages as an array. -/
def msg (ew : Fin 800000 → EReal) (ea : Arr 800000 50) (g : Arr 800000 128) (w1t : Arr 50 128) (b1 : Fin 128 → EReal)
    (w2t : Arr 128 128) (b2 : Fin 128 → EReal) : Arr 800000 128 :=
  fun i => msgAt ew ea g w1t b1 w2t b2 (i 0) (i 1)

theorem msg_apply (ew : Fin 800000 → EReal) (ea : Arr 800000 50) (g : Arr 800000 128) (w1t : Arr 50 128) (b1 : Fin 128 → EReal)
    (w2t : Arr 128 128) (b2 : Fin 128 → EReal) (e : Fin 800000) (f : Fin 128) :
    msg ew ea g w1t b1 w2t b2 (ix2 e f) = msgAt ew ea g w1t b1 w2t b2 e f := rfl

/-! ## The combine stage -/

/-- Entry (r, f) of (h1 + agg) · w3ᵗ + b3. -/
def outAt (h1 agg : Arr 50000 128) (w3t : Arr 128 128) (b3 : Fin 128 → EReal) (r : Fin 50000) (f : Fin 128) : EReal :=
  (∑ k : Fin 128, (h1 (ix2 r k) + agg (ix2 r k)) * w3t (ix2 k f)) + b3 f

/-- The layer's output as an array. -/
def out (h1 agg : Arr 50000 128) (w3t : Arr 128 128) (b3 : Fin 128 → EReal) : Arr 50000 128 :=
  fun i => outAt h1 agg w3t b3 (i 0) (i 1)

theorem out_apply (h1 agg : Arr 50000 128) (w3t : Arr 128 128) (b3 : Fin 128 → EReal) (r : Fin 50000) (f : Fin 128) :
    out h1 agg w3t b3 (ix2 r f) = outAt h1 agg w3t b3 r f := rfl

end Cert.Spec

end
-- ==== Proof.Consts.lean ====
/-
  The float words of the cosine cutoff as the rationals they denote, and the one law that joins the two programs there:
  the reference computes (x · f32 π) / 10, the kernel x · f32 (π/10). The word of f32 π is 13176795 / 2²², and 13176795 is a
  multiple of 5, so f32 π / 10 = 2635359 / 2²³ is itself a 24-bit dyadic: it IS the kernel's word, exactly. Hence the two
  arguments of the cosine are one extended real for every x (associativity of the product; no finiteness is used).
-/
import proofs.«424846_j70944269795976_2_alg».proof.Proof.Spec

noncomputable section

namespace Cert.Consts

open Idealize.ShloMosaic Cert.Spec

/-- The word of f32 π denotes 13176795 / 2²². -/
theorem piW_eq : piW = ((13176795 / 4194304 : ℝ) : EReal) := by
  simp [Ideal.ofBits, Ideal.ieee, -EReal.coe_mul]; norm_num

/-- The word 10.0 denotes 10. -/
theorem tenW_eq : tenW = ((10 : ℝ) : EReal) := by
  simp [Ideal.ofBits, Ideal.ieee, -EReal.coe_mul]; norm_num

/-- The kernel's folded word denotes 10541436 / 2²⁵ = 2635359 / 2²³. -/
theorem piTenthW_eq : piTenthW = ((10541436 / 33554432 : ℝ) : EReal) := by
  simp [Ideal.ofBits, Ideal.ieee, -EReal.coe_mul]; norm_num

/-- (x · f32 π) / 10 = x · f32 (π/10) on every extended real. -/
theorem cut_arg (x : EReal) : Ideal.div (x * piW) tenW = x * piTenthW := by
  rw [piW_eq, tenW_eq, piTenthW_eq, Ideal.div_coe (by norm_num : (10 : ℝ) ≠ 0), mul_assoc, ← EReal.coe_mul]
  congr 2
  norm_num

end Cert.Consts

end
-- ==== Proof.RefValue.lean ====
/-
  The reference's stages as the functions of the specification: its three host matrix products are dense layers, its
  filter chain times a gathered array is the per-edge message, and its last three operations are the combine stage.
  The gather and the scatter-add stay the host operations they are.
-/
import proofs.«424846_j70944269795976_2_alg».proof.Defs
import proofs.«424846_j70944269795976_2_alg».proof.Proof.Gen.ReferenceIdeal.Run
import proofs.«424846_j70944269795976_2_alg».proof.Proof.Gen.ReferenceIdeal.Read
import proofs.«424846_j70944269795976_2_alg».proof.Proof.Spec
import proofs.«424846_j70944269795976_2_alg».proof.Proof.Consts

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx

/-- The host product of this record read at row `r`, column `c`: the sum over the shared axis of the row of `A` against
    the column of `B`. -/
theorem dot_nodes_apply (A : FVec Ideal S50000x128 .f32) (B : FVec Ideal S128x128 .f32) (r : Fin 50000) (c : Fin 128) :
    Host.dotGeneral (F := Ideal) dot_S50000x128_S128x128_S50000x128_1_0_0_1_n_n none A B (ix2 r c)
      = ∑ k : Fin 128, A (ix2 r k) * B (ix2 k c) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r c)
      ((contrEquiv1 dot_S50000x128_S128x128_S50000x128_1_0_0_1_n_n 128 rfl rfl).symm k) = ix2 r k :=
    funext fun a => Fin.ext (by
      match a with
      | ⟨0, _⟩ => exact lhs_main_v1_0 _ _
      | ⟨1, _⟩ => exact (lhs_main_v1_1 _ _).trans hk)
  have er : dot_S50000x128_S128x128_S50000x128_1_0_0_1_n_n.rhsIdx (ix2 r c)
      ((contrEquiv1 dot_S50000x128_S128x128_S50000x128_1_0_0_1_n_n 128 rfl rfl).symm k) = ix2 k c :=
    funext fun a => Fin.ext (by
      match a with
      | ⟨0, _⟩ => exact (rhs_main_v1_0 _ _).trans hk
      | ⟨1, _⟩ => exact rhs_main_v1_1 _ _)
  rw [el, er]

/-- The host product of a [50000,128] array and a [128,128] array is the dense layer. -/
theorem dense_nodes (A : FVec Ideal S50000x128 .f32) (B : FVec Ideal S128x128 .f32) :
    Host.dotGeneral (F := Ideal) dot_S50000x128_S128x128_S50000x128_1_0_0_1_n_n none A B = Cert.Spec.dense A B := by
  funext i
  obtain ⟨r, c, rfl⟩ : ∃ (r : Fin 50000) (c : Fin 128), i = ix2 r c := ⟨i 0, i 1, eq_ix2 i⟩
  rw [dot_nodes_apply, Cert.Spec.dense_apply]
  rfl

/-! ## The per-edge filter, stage by stage -/

/-- The reference's softplus chain on one extended real, less the word of ln 2, is the shifted softplus: its guard compares
    a value with itself, which is never unequal, so the select keeps the overflow-safe branch; the zero word is 0. -/
theorem ssp_chain (z : EReal) :
    Scalar.select (Ideal.cmp .une (z - Ideal.ofBits .f32 0x00000000#32) (z - Ideal.ofBits .f32 0x00000000#32))
        (z + Ideal.ofBits .f32 0x00000000#32)
        (max z (Ideal.ofBits .f32 0x00000000#32)
          + Ideal.log1p (Ideal.exp (-(max (z - Ideal.ofBits .f32 0x00000000#32) (-(z - Ideal.ofBits .f32 0x00000000#32))))))
      - Ideal.ofBits .f32 0x3F317218#32 = Cert.Spec.ssp z := by
  have h0 : ∀ x : EReal, Ideal.cmp .une x x = 0#1 := fun x => by simp [Ideal.cmp]
  rw [h0, select_zero, Ideal.ofBits_zero_f32]
  rfl

/-- The first pre-activation at edge `e`, channel `k`: the row of the edge attributes against the column of the first
    weight, plus the first bias. -/
theorem pre1_eq (x3 : FVec Ideal S800000x50 .f32) (x5 : FVec Ideal S128x50 .f32) (x6 : FVec Ideal S128 .f32)
    (e : Fin 800000) (k : Fin 128) :
    val_main_v15 (F := Ideal) x3 x5 x6 (ix2 e k)
      = Cert.Spec.denseAt x3 (val_main_v11 (F := Ideal) x5) e k + x6 (ix1 k) := by
  have hl : ∀ j : Fin 50, lidx_main_v12 (ix2 e k) j = ix2 e j := fun j =>
    funext fun a => Fin.ext (by match a with | ⟨0, _⟩ => rfl | ⟨1, _⟩ => rfl)
  have hr : ∀ j : Fin 50, ridx_main_v12 (ix2 e k) j = ix2 j k := fun j =>
    funext fun a => Fin.ext (by match a with | ⟨0, _⟩ => rfl | ⟨1, _⟩ => rfl)
  have hb : idx_main_v13 (idx_main_v14 (ix2 e k)) = ix1 k :=
    funext fun a => Fin.ext (by match a with | ⟨0, _⟩ => rfl)
  rw [val_main_v15_apply, val_main_v12_apply, val_main_v14_apply, val_main_v13_apply, hb]
  unfold Cert.Spec.denseAt
  refine congrArg (· + x6 (ix1 k)) (Finset.sum_congr rfl fun j _ => ?_)
  rw [hl, hr]

/-- The hidden layer of the filter network: the shifted softplus of the first pre-activation. -/
theorem hid_eq (x3 : FVec Ideal S800000x50 .f32) (x5 : FVec Ideal S128x50 .f32) (x6 : FVec Ideal S128 .f32)
    (e : Fin 800000) (k : Fin 128) :
    val_main_v18 (F := Ideal) x3 x5 x6 (ix2 e k)
      = Cert.Spec.hidAt x3 (val_main_v11 (F := Ideal) x5) (fun f => x6 (ix1 f)) e k := by
  simp only [val_main_v18_apply, val_main_v16_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_v5_apply, val_main_call0_cst_apply, val_main_v17_apply,
    val_main_cst_3_apply, pre1_eq]
  exact ssp_chain _

/-- The second pre-activation at edge `e`, channel `f`: the hidden row against the column of the second weight, plus the
    second bias. -/
theorem pre2_eq (x3 : FVec Ideal S800000x50 .f32) (x5 : FVec Ideal S128x50 .f32) (x6 : FVec Ideal S128 .f32)
    (x7 : FVec Ideal S128x128 .f32) (x8 : FVec Ideal S128 .f32) (e : Fin 800000) (f : Fin 128) :
    val_main_v23 (F := Ideal) x3 x5 x6 x7 x8 (ix2 e f)
      = Cert.Spec.z2At x3 (val_main_v11 (F := Ideal) x5) (fun f => x6 (ix1 f)) (val_main_v19 (F := Ideal) x7)
          (fun f => x8 (ix1 f)) e f := by
  have hl : ∀ k : Fin 128, lidx_main_v20 (ix2 e f) k = ix2 e k := fun k =>
    funext fun a => Fin.ext (by match a with | ⟨0, _⟩ => rfl | ⟨1, _⟩ => rfl)
  have hr : ∀ k : Fin 128, ridx_main_v20 (ix2 e f) k = ix2 k f := fun k =>
    funext fun a => Fin.ext (by match a with | ⟨0, _⟩ => rfl | ⟨1, _⟩ => rfl)
  have hb : idx_main_v21 (idx_main_v22 (ix2 e f)) = ix1 f :=
    funext fun a => Fin.ext (by match a with | ⟨0, _⟩ => rfl)
  rw [val_main_v23_apply, val_main_v20_apply, val_main_v22_apply, val_main_v21_apply, hb]
  unfold Cert.Spec.z2At
  refine congrArg (· + x8 (ix1 f)) (Finset.sum_congr rfl fun k _ => ?_)
  rw [hl, hr, hid_eq]

/-- The filter before the cutoff: the shifted softplus of the second pre-activation. -/
theorem filt_eq (x3 : FVec Ideal S800000x50 .f32) (x5 : FVec Ideal S128x50 .f32) (x6 : FVec Ideal S128 .f32)
    (x7 : FVec Ideal S128x128 .f32) (x8 : FVec Ideal S128 .f32) (e : Fin 800000) (f : Fin 128) :
    val_main_v26 (F := Ideal) x3 x5 x6 x7 x8 (ix2 e f)
      = Cert.Spec.ssp (Cert.Spec.z2At x3 (val_main_v11 (F := Ideal) x5) (fun f => x6 (ix1 f)) (val_main_v19 (F := Ideal) x7)
          (fun f => x8 (ix1 f)) e f) := by
  simp only [val_main_v26_apply, val_main_v24_apply, val_main_call1_v4_apply, val_main_call1_v6_apply,
    val_main_call1_v11_apply, val_main_call1_v1_apply, val_main_call1_v10_apply, val_main_call1_v9_apply,
    val_main_call1_v8_apply, val_main_call1_v7_apply, val_main_call1_v3_apply, val_main_call1_v0_apply,
    val_main_call1_v2_apply, val_main_call1_v5_apply, val_main_call1_cst_apply, val_main_v25_apply,
    val_main_cst_4_apply, pre2_eq]
  exact ssp_chain _

/-- The cutoff column: the flat cutoff array of the edge lengths, broadcast along the channels. The reference's
    (x · π) / 10 is the specification's x · (π/10) on every extended real. -/
theorem cut_eq (x2 : FVec Ideal S800000 .f32) (e : Fin 800000) (f : Fin 128) :
    val_main_v28 (F := Ideal) x2 (ix2 e f) = Cert.Spec.cut (x2 (ix1 e)) := by
  have hb : idx_main_v27 (idx_main_v28 (ix2 e f)) = ix1 e :=
    funext fun a => Fin.ext (by match a with | ⟨0, _⟩ => rfl)
  rw [val_main_v28_apply, val_main_v27_apply, hb]
  simp only [val_main_v10_apply, val_main_v9_apply, val_main_cst_2_apply, val_main_v8_apply, val_main_v7_apply,
    val_main_cst_1_apply, val_main_v6_apply, val_main_v5_apply, val_main_v4_apply, val_main_cst_0_apply,
    val_main_v3_apply, val_main_v2_apply, val_main_cst_apply]
  unfold Cert.Spec.cut
  rw [← Cert.Consts.cut_arg]
  rfl

/-- The reference's filter chain times any [800000,128] array `g` is the per-edge message over `g`. -/
theorem msg_eq (x2 : FVec Ideal S800000 .f32) (x3 : FVec Ideal S800000x50 .f32) (x5 : FVec Ideal S128x50 .f32)
    (x6 : FVec Ideal S128 .f32) (x7 : FVec Ideal S128x128 .f32) (x8 : FVec Ideal S128 .f32) (g : FVec Ideal S800000x128 .f32) :
    mulf (val_main_v29 (F := Ideal) x2 x3 x5 x6 x7 x8) g
      = Cert.Spec.msg (fun e => x2 (ix1 e)) x3 g (val_main_v11 (F := Ideal) x5) (fun f => x6 (ix1 f))
          (val_main_v19 (F := Ideal) x7) (fun f => x8 (ix1 f)) := by
  funext i
  obtain ⟨e, f, rfl⟩ : ∃ (e : Fin 800000) (f : Fin 128), i = ix2 e f := ⟨i 0, i 1, eq_ix2 i⟩
  rw [mulf_apply, val_main_v29_apply, filt_eq, cut_eq, Cert.Spec.msg_apply]
  rfl

/-- The reference's last stage over any two [50000,128] arrays is the combine stage. -/
theorem out_eq (h1 agg : FVec Ideal S50000x128 .f32) (w3t : FVec Ideal S128x128 .f32) (x10 : FVec Ideal S128 .f32) :
    addf (Host.dotGeneral (F := Ideal) dot_S50000x128_S128x128_S50000x128_1_0_0_1_n_n none (addf h1 agg) w3t)
        (val_main_v49 (F := Ideal) x10)
      = Cert.Spec.out h1 agg w3t (fun f => x10 (ix1 f)) := by
  funext i
  obtain ⟨r, f, rfl⟩ : ∃ (r : Fin 50000) (f : Fin 128), i = ix2 r f := ⟨i 0, i 1, eq_ix2 i⟩
  have hb : idx_main_v48 (idx_main_v49 (ix2 r f)) = ix1 f :=
    funext fun a => Fin.ext (by match a with | ⟨0, _⟩ => rfl)
  rw [addf_apply, dot_nodes_apply, val_main_v49_apply, val_main_v48_apply, hb, Cert.Spec.out_apply]
  rfl

end Cert.ReferenceIdeal.RefValue

end
-- ==== Proof.KRegion0.lean ====
/-
  The first kernel region: ten blocks of 5000 node rows, each block's rows times the 128×128 weight.
  After the region the output array is the dense layer of the two arrays the region was entered with.
-/
import proofs.«424846_j70944269795976_2_alg».proof.Proof.Gen.KernelIdeal.Frame
import proofs.«424846_j70944269795976_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole-buffer rectangle starts at the origin. -/
theorem hz : (![0, 0] : Fin 2 → Nat) = fun _ => 0 :=
  funext fun a => match a with | ⟨0, _⟩ => rfl | ⟨1, _⟩ => rfl

/-! ## The product of a row block with the weight, entry by entry -/

/-- The row of the left factor is the output's row. -/
theorem lhs_lin1_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The column of the left factor is the summation index. -/
theorem lhs_lin1_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- The row of the right factor is the summation index. -/
theorem rhs_lin1_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- The column of the right factor is the output's column. -/
theorem rhs_lin1_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of what the body stores: the sum over k of the row block's (p, k) times the weight's (k, q).
    The narrowing to bf16 is the identity on the extended reals and the accumulator starts at zero. -/
theorem pay0 (x0 : FVec Ideal S5000x128 .f32) (x1 : FVec Ideal S128x128 .f32) (p : Fin 5000) (q : Fin 128) :
    k0_pay1 (F := Ideal) x0 x1 (ix2 p q) = ∑ k : Fin 128, x0 (ix2 p k) * x1 (ix2 k q) := by
  unfold k0_pay1
  rw [shapeCast_self]
  show FloatOps.matmul dot_S5000x128_S128x128_S5000x128_1_0_0_1_n_n none x0 x1 (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_lin1_0 _ _
    | ⟨1, _⟩ => exact (lhs_lin1_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_lin1_0 _ _).trans hk
    | ⟨1, _⟩ => exact rhs_lin1_1 _ _)
  rw [el, er]

/-! ## The blocks: which rows of the arrays a point holds -/

/-- The index maps, decided once over the ten points: the node array's row block is the output's, every
    column block is block 0, the weight's one block is block (0, 0), and the output's row block is one of the ten. -/
theorem idx_facts0 : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks of the output is some point's. -/
theorem idx_onto0 : ∀ b : Fin 10, ∃ t : Fin cfg0.N, win0_2.index t = ![b.val, 0] :=
  (by decide +kernel : ∀ b : Fin 10, ∃ t : Fin grid0.N, win0_2.index t = ![b.val, 0])

/-- The array row that row p of a point's block is: (the point's row block) · 5000 + p. -/
def row (t : Fin cfg0.N) (p : Fin 5000) : Fin 50000 :=
  ⟨win0_2.index t (0 : Fin 2) * 5000 + p.val, by
    have h9 := (idx_facts0 t).2.2.2.2.2
    have hp := p.isLt
    omega⟩

/-- The node array's block at a point, entry (p, k), is the array's entry (row p of the point, k). -/
theorem blk_nodes (c : Dev nD) (t : Fin cfg0.N) (p : Fin 5000) (k : Fin 128) :
    iblk0 V c 0 t (ix2 p k) = V c main_arg0 (ix2 (row t p) k) := by
  unfold iblk0
  show V c main_arg0 (((cfg0.win 0).blk t).view.emb (ix2 p k)) = _
  refine congrArg (V c main_arg0) (funext fun a => Fin.ext ?_)
  obtain ⟨e0, e1, e2, e3, e4, e5⟩ := idx_facts0 t
  match a with
  | ⟨0, _⟩ => show win0_0.index t (0 : Fin 2) * 5000 + 1 * p.val = win0_2.index t (0 : Fin 2) * 5000 + p.val; omega
  | ⟨1, _⟩ => show win0_0.index t (1 : Fin 2) * 128 + 1 * k.val = k.val; omega

/-- The weight's block at every point is the weight. -/
theorem blk_weight (c : Dev nD) (t : Fin cfg0.N) (k : Fin 128) (q : Fin 128) :
    iblk0 V c 1 t (ix2 k q) = V c main_v0 (ix2 k q) := by
  unfold iblk0
  show V c main_v0 (((cfg0.win 1).blk t).view.emb (ix2 k q)) = _
  refine congrArg (V c main_v0) (funext fun a => Fin.ext ?_)
  obtain ⟨e0, e1, e2, e3, e4, e5⟩ := idx_facts0 t
  match a with
  | ⟨0, _⟩ => show win0_1.index t (0 : Fin 2) * 128 + 1 * k.val = k.val; omega
  | ⟨1, _⟩ => show win0_1.index t (1 : Fin 2) * 128 + 1 * q.val = q.val; omega

/-- Entry (p, q) of the output's block at a point sits at the array's entry (row p of the point, q). -/
theorem emb_out (t : Fin cfg0.N) (p : Fin 5000) (q : Fin 128) :
    ((cfg0.win 2).blk t).view.emb (ix2 p q) = ix2 (row t p) q := by
  refine funext fun a => Fin.ext ?_
  obtain ⟨e0, e1, e2, e3, e4, e5⟩ := idx_facts0 t
  match a with
  | ⟨0, _⟩ => show win0_2.index t (0 : Fin 2) * 5000 + 1 * p.val = win0_2.index t (0 : Fin 2) * 5000 + p.val; omega
  | ⟨1, _⟩ => show win0_2.index t (1 : Fin 2) * 128 + 1 * q.val = q.val; omega

/-! ## What a point writes back -/

/-- Point t writes back block t of the matrix product of the node array and the weight as the region finds them. -/
theorem flushed_eq (c : Dev nD) (t : Fin cfg0.N) :
    (dat0 (F := Ideal) V c).flushed 2 t
      = ((cfg0.win 2).blk t).view.read (Elt Ideal) (Cert.Spec.dense (V c main_arg0) (V c main_v0)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = Cert.Spec.dense (V c main_arg0) (V c main_v0) (((cfg0.win 2).blk t).view.emb (ix2 p q))
  refine (pay0 _ _ p q).trans ?_
  rw [emb_out, Cert.Spec.dense_apply]
  unfold Cert.Spec.denseAt
  refine Finset.sum_congr rfl fun k _ => ?_
  rw [blk_nodes, blk_weight]

/-! ## The ten blocks tile the array -/

/-- An entry of the array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v1).slice (win0_2.rect t)).set ↔ _
  rw [View.set_slice_whole, Rect.mem_set_unit]
  exact Iff.rfl

/-- Row r of the array is in the block of the point whose row block is r / 5000, and that point writes back. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The region's output array, after its ten write-backs, is the matrix product of the node array and the weight as the
    region finds them. -/
theorem final0 (c : Dev nD) :
    (dat0 (F := Ideal) V c).arrAt 2 cfg0.N = Cert.Spec.dense (V c main_arg0) (V c main_v0) := by
  exact (dat0 (F := Ideal) V c).arrAt_eq_of_cover 2 (Cert.Spec.dense (V c main_arg0) (V c main_v0))
    (fun t _ => flushed_eq V c t) cover0

end Cert.KernelIdeal.Region0

end
-- ==== Proof.KRegion1.lean ====
/-
  The second kernel region: two hundred blocks of 4000 edges. Each edge row runs the filter network on its 50
  attributes, scales by the cosine cutoff of its length and multiplies by its gathered feature row.
-/
import proofs.«424846_j70944269795976_2_alg».proof.Proof.Gen.KernelIdeal.Frame
import proofs.«424846_j70944269795976_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

/-! ## The body's arithmetic, entry by entry -/

/-- The zero offsets of a whole-block access, as the constant function. -/
theorem hz : (![0, 0] : Fin 2 → Nat) = fun _ => 0 := funext fun a => by fin_cases a <;> rfl

/-- The cutoff stage at a row: ½ (cos (x · π/10) + 1) of the row's edge length. -/
theorem pay2_apply (x0 : Vec Ideal S4000x1 .f32) (p : Fin 4000) :
    k1_pay2 (F := Ideal) x0 (ix2 p (0 : Fin 1)) = Cert.Spec.cut (x0 (ix2 p (0 : Fin 1))) := by
  unfold k1_pay2
  simp only [shapeCast_self]
  rfl

theorem attrDot_lhs0 (i : S4000x128.Idx) (q : dot_S4000x50_S50x128_S4000x128_1_0_0_1_n_n.contr.Idx) :
    (dot_S4000x50_S50x128_S4000x128_1_0_0_1_n_n.lhsIdx i q 0).val = (i 0).val := by
  unfold DotDims.lhsIdx
  rw [dif_neg (show ¬(0 : Fin S4000x50.rank) ∈ dot_S4000x50_S50x128_S4000x128_1_0_0_1_n_n.lhsBatch by decide), dif_pos (show (0 : Fin S4000x50.rank) ∈ dot_S4000x50_S50x128_S4000x128_1_0_0_1_n_n.lhsNonContracting by decide)]
  rfl
theorem attrDot_lhs1 (i : S4000x128.Idx) (q : dot_S4000x50_S50x128_S4000x128_1_0_0_1_n_n.contr.Idx) :
    (dot_S4000x50_S50x128_S4000x128_1_0_0_1_n_n.lhsIdx i q 1).val = (q ⟨0, by decide⟩).val :=
  dot_S4000x50_S50x128_S4000x128_1_0_0_1_n_n.lhsIdx_val_of_single rfl i q
theorem attrDot_rhs0 (i : S4000x128.Idx) (q : dot_S4000x50_S50x128_S4000x128_1_0_0_1_n_n.contr.Idx) :
    (dot_S4000x50_S50x128_S4000x128_1_0_0_1_n_n.rhsIdx i q 0).val = (q ⟨0, by decide⟩).val :=
  dot_S4000x50_S50x128_S4000x128_1_0_0_1_n_n.rhsIdx_val_of_single rfl i q
theorem attrDot_rhs1 (i : S4000x128.Idx) (q : dot_S4000x50_S50x128_S4000x128_1_0_0_1_n_n.contr.Idx) :
    (dot_S4000x50_S50x128_S4000x128_1_0_0_1_n_n.rhsIdx i q 1).val = (i 1).val := by
  unfold DotDims.rhsIdx
  rw [dif_neg (show ¬(1 : Fin S50x128.rank) ∈ dot_S4000x50_S50x128_S4000x128_1_0_0_1_n_n.rhsBatch by decide), dif_pos (show (1 : Fin S50x128.rank) ∈ dot_S4000x50_S50x128_S4000x128_1_0_0_1_n_n.rhsNonContracting by decide)]
  rfl

/-- A product of a block of rows with a 50-row matrix, entry by entry: the sum over the 50 contracted positions. -/
theorem attrDot_apply {φ₁ φ₂ : FTy} (A : FVec Ideal S4000x50 φ₁) (B : FVec Ideal S50x128 φ₂) (p : Fin 4000) (q : Fin 128) :
    matmul dot_S4000x50_S50x128_S4000x128_1_0_0_1_n_n none A B (constant S4000x128 .f32 0x00000000#32) (ix2 p q)
      = ∑ k : Fin 50, A (ix2 p k) * B (ix2 k q) := by
  simp only [matmul]
  rw [Ideal.matmul_constant_zero_apply, ← Equiv.sum_comp (contrEquiv1 dot_S4000x50_S50x128_S4000x128_1_0_0_1_n_n 50 rfl rfl).symm]
  refine Finset.sum_congr rfl fun k _ => ?_
  have hk := contrEquiv1_symm_val dot_S4000x50_S50x128_S4000x128_1_0_0_1_n_n 50 rfl rfl k
  have el : dot_S4000x50_S50x128_S4000x128_1_0_0_1_n_n.lhsIdx (ix2 p q) ((contrEquiv1 dot_S4000x50_S50x128_S4000x128_1_0_0_1_n_n 50 rfl rfl).symm k) = ix2 p k := funext fun a => Fin.ext (by
    match a with
    | ⟨0, _⟩ => exact attrDot_lhs0 _ _
    | ⟨1, _⟩ => exact (attrDot_lhs1 _ _).trans hk)
  have er : dot_S4000x50_S50x128_S4000x128_1_0_0_1_n_n.rhsIdx (ix2 p q) ((contrEquiv1 dot_S4000x50_S50x128_S4000x128_1_0_0_1_n_n 50 rfl rfl).symm k) = ix2 k q := funext fun a => Fin.ext (by
    match a with
    | ⟨0, _⟩ => exact (attrDot_rhs0 _ _).trans hk
    | ⟨1, _⟩ => exact attrDot_rhs1 _ _)
  rw [el, er]

theorem hidDot_lhs0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem hidDot_lhs1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem hidDot_rhs0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem hidDot_rhs1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A product of a block of rows with a 128-row matrix, entry by entry: the sum over the 128 contracted positions. -/
theorem hidDot_apply {φ₁ φ₂ : FTy} (A : FVec Ideal S4000x128 φ₁) (B : FVec Ideal S128x128 φ₂) (p : Fin 4000) (q : Fin 128) :
    matmul dot_S4000x128_S128x128_S4000x128_1_0_0_1_n_n none A B (constant S4000x128 .f32 0x00000000#32) (ix2 p q)
      = ∑ k : Fin 128, A (ix2 p k) * B (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact hidDot_lhs0 _ _
    | ⟨1, _⟩ => exact (hidDot_lhs1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (hidDot_rhs0 _ _).trans hk
    | ⟨1, _⟩ => exact hidDot_rhs1 _ _)
  rw [el, er]

/-- The guarded softplus chain of the body, at one entry, is the shifted softplus of that entry: over the extended reals
    the guard "z − 0 differs from itself" never fires, the zero word is 0, and 0 − |d| is −|d|. -/
theorem ssp_vec (Z : FVec Ideal S4000x128 .f32) (i : S4000x128.Idx) :
    subf
        (select
          (cmpf CmpFPredicate.one (subf Z (broadcast S4000x128 (Scalar.ofBits (F := Ideal) .f32 0x00000000#32)))
            (subf Z (broadcast S4000x128 (Scalar.ofBits (F := Ideal) .f32 0x00000000#32))))
          (addf Z (broadcast S4000x128 (Scalar.ofBits (F := Ideal) .f32 0x00000000#32)))
          (addf (maximumf Z (broadcast S4000x128 (Scalar.ofBits (F := Ideal) .f32 0x00000000#32)))
            (log1p (exp (subf (broadcast S4000x128 (Scalar.ofBits (F := Ideal) .f32 0x00000000#32))
              (absf (subf Z (broadcast S4000x128 (Scalar.ofBits (F := Ideal) .f32 0x00000000#32)))))))))
        (broadcast S4000x128 (Scalar.ofBits (F := Ideal) .f32 0x3F317218#32)) i
      = Cert.Spec.ssp (Z i) := by
  show Scalar.select (Ideal.cmp .one (Z i - Ideal.ofBits .f32 0x00000000#32) (Z i - Ideal.ofBits .f32 0x00000000#32))
        (Z i + Ideal.ofBits .f32 0x00000000#32)
        (max (Z i) (Ideal.ofBits .f32 0x00000000#32) + Ideal.log1p (Ideal.exp (Ideal.ofBits .f32 0x00000000#32
          - max (Z i - Ideal.ofBits .f32 0x00000000#32) (-(Z i - Ideal.ofBits .f32 0x00000000#32)))))
      - Ideal.ofBits .f32 0x3F317218#32 = _
  rw [Ideal.ofBits_zero_f32]
  have hc : Ideal.cmp .one (Z i - 0) (Z i - 0) = 0#1 := by simp [Ideal.cmp]
  rw [hc, select_zero, zero_sub]
  rfl

/-- A column [a, 1] stretched to [a, b] reads, at (p, c), the column's entry at row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The filter network's second pre-activation without its bias, at row p and channel q of a block: the hidden layer
    (the shifted softplus of the attributes against the first weights plus the first bias) against the second weights. -/
theorem pay3_apply (x1 : Vec Ideal S4000x50 .f32) (x3 : Vec Ideal S50x128 .f32) (x4 : Vec Ideal S1x128 .f32) (x5 : Vec Ideal S128x128 .f32)
    (p : Fin 4000) (q : Fin 128) :
    k1_pay3 (F := Ideal) x1 x3 x4 x5 (ix2 p q)
      = ∑ k : Fin 128, Cert.Spec.ssp ((∑ j : Fin 50, x1 (ix2 p j) * x3 (ix2 j k)) + x4 (ix2 (0 : Fin 1) k)) * x5 (ix2 k q) := by
  unfold k1_pay3
  simp only [shapeCast_self]
  refine (hidDot_apply _ _ p q).trans ?_
  refine Finset.sum_congr rfl fun k _ => ?_
  rw [truncf_apply, truncf_apply, ssp_vec, addf_apply, attrDot_apply, broadcastTo_1b_ab_apply]
  rfl

/-- The body's stored value at row p and channel q of a block: the shifted softplus of the second pre-activation, times
    the row's cutoff, times the gathered feature. -/
theorem pay1_apply (v8 : FVec Ideal S4000x1 .f32) (v39 : FVec Ideal S4000x128 .f32) (x6 : Vec Ideal S1x128 .f32) (x2 : Vec Ideal S4000x128 .f32)
    (p : Fin 4000) (q : Fin 128) :
    k1_pay1 (F := Ideal) v8 v39 x6 x2 (ix2 p q)
      = (Cert.Spec.ssp (v39 (ix2 p q) + x6 (ix2 (0 : Fin 1) q)) * v8 (ix2 p (0 : Fin 1))) * x2 (ix2 p q) := by
  unfold k1_pay1
  simp only [shapeCast_self]
  rw [mulf_apply, mulf_apply, ssp_vec, addf_apply, broadcastTo_1b_ab_apply, broadcastTo_a1_ab_apply]

/-! ## Where each block sits in its array -/

/-- The printed index maps over the two hundred points: the row-blocked windows sit at block (t, 0), the one-block
    windows at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem lt_N1 (t : Fin cfg1.N) : t.val < 200 := lt_of_lt_of_eq t.isLt N_1

/-- The edge that row p of block t is. -/
def row (t : Fin cfg1.N) (p : Fin 4000) : Fin 800000 := ⟨t.val * 4000 + p.val, by have := lt_N1 t; have := p.isLt; omega⟩

variable (V : (c : Dev nD) → (b : Ref sig .tc) → Buf (Elt Ideal) ((c : Thread nD τ).loc b))

/-- Row p of the edge-length block at point t is edge t·4000 + p of the array. -/
theorem rd0 (c : Dev nD) (t : Fin cfg1.N) (p : Fin 4000) (j : Fin 1) :
    iblk1 (F := Ideal) V c 0 t (ix2 p j) = V c main_v7 (ix2 (row t p) j) := by
  unfold iblk1
  rw [View.read_apply]
  show V c main_v7 (((cfg1.win 0).blk t).view.emb (ix2 p j)) = _
  refine congrArg (V c main_v7) ?_
  obtain ⟨a0, a1, b0, b1, c0, c1, d0, d1, e0, e1, f0, f1, g0, g1, h0, h1⟩ := idx_facts1 t
  funext a; apply Fin.ext
  match a with
  | ⟨0, _⟩ => show win1_0.index t (0 : Fin 2) * 4000 + 1 * p.val = t.val * 4000 + p.val; rw [a0]; omega
  | ⟨1, _⟩ => show win1_0.index t (1 : Fin 2) * 1 + 1 * j.val = j.val; rw [a1]; omega

/-- Row p of the attribute block at point t is edge t·4000 + p of the array. -/
theorem rd1 (c : Dev nD) (t : Fin cfg1.N) (p : Fin 4000) (j : Fin 50) :
    iblk1 (F := Ideal) V c 1 t (ix2 p j) = V c main_arg3 (ix2 (row t p) j) := by
  unfold iblk1
  rw [View.read_apply]
  show V c main_arg3 (((cfg1.win 1).blk t).view.emb (ix2 p j)) = _
  refine congrArg (V c main_arg3) ?_
  obtain ⟨a0, a1, b0, b1, c0, c1, d0, d1, e0, e1, f0, f1, g0, g1, h0, h1⟩ := idx_facts1 t
  funext a; apply Fin.ext
  match a with
  | ⟨0, _⟩ => show win1_1.index t (0 : Fin 2) * 4000 + 1 * p.val = t.val * 4000 + p.val; rw [b0]; omega
  | ⟨1, _⟩ => show win1_1.index t (1 : Fin 2) * 50 + 1 * j.val = j.val; rw [b1]; omega

/-- Row p of the gathered-feature block at point t is edge t·4000 + p of the array. -/
theorem rd2 (c : Dev nD) (t : Fin cfg1.N) (p : Fin 4000) (j : Fin 128) :
    iblk1 (F := Ideal) V c 2 t (ix2 p j) = V c main_v6 (ix2 (row t p) j) := by
  unfold iblk1
  rw [View.read_apply]
  show V c main_v6 (((cfg1.win 2).blk t).view.emb (ix2 p j)) = _
  refine congrArg (V c main_v6) ?_
  obtain ⟨a0, a1, b0, b1, c0, c1, d0, d1, e0, e1, f0, f1, g0, g1, h0, h1⟩ := idx_facts1 t
  funext a; apply Fin.ext
  match a with
  | ⟨0, _⟩ => show win1_2.index t (0 : Fin 2) * 4000 + 1 * p.val = t.val * 4000 + p.val; rw [c0]; omega
  | ⟨1, _⟩ => show win1_2.index t (1 : Fin 2) * 128 + 1 * j.val = j.val; rw [c1]; omega

/-- The first weights' one block is the whole array, at every point. -/
theorem rd3 (c : Dev nD) (t : Fin cfg1.N) (i : Fin 50) (j : Fin 128) :
    iblk1 (F := Ideal) V c 3 t (ix2 i j) = V c main_v8 (ix2 i j) := by
  unfold iblk1
  rw [View.read_apply]
  show V c main_v8 (((cfg1.win 3).blk t).view.emb (ix2 i j)) = _
  refine congrArg (V c main_v8) ?_
  obtain ⟨a0, a1, b0, b1, c0, c1, d0, d1, e0, e1, f0, f1, g0, g1, h0, h1⟩ := idx_facts1 t
  funext a; apply Fin.ext
  match a with
  | ⟨0, _⟩ => show win1_3.index t (0 : Fin 2) * 50 + 1 * i.val = i.val; rw [d0]; omega
  | ⟨1, _⟩ => show win1_3.index t (1 : Fin 2) * 128 + 1 * j.val = j.val; rw [d1]; omega

/-- The first bias's one block is the whole array, at every point. -/
theorem rd4 (c : Dev nD) (t : Fin cfg1.N) (i : Fin 1) (j : Fin 128) :
    iblk1 (F := Ideal) V c 4 t (ix2 i j) = V c main_v10 (ix2 i j) := by
  unfold iblk1
  rw [View.read_apply]
  show V c main_v10 (((cfg1.win 4).blk t).view.emb (ix2 i j)) = _
  refine congrArg (V c main_v10) ?_
  obtain ⟨a0, a1, b0, b1, c0, c1, d0, d1, e0, e1, f0, f1, g0, g1, h0, h1⟩ := idx_facts1 t
  funext a; apply Fin.ext
  match a with
  | ⟨0, _⟩ => show win1_4.index t (0 : Fin 2) * 1 + 1 * i.val = i.val; rw [e0]; omega
  | ⟨1, _⟩ => show win1_4.index t (1 : Fin 2) * 128 + 1 * j.val = j.val; rw [e1]; omega

/-- The second weights' one block is the whole array, at every point. -/
theorem rd5 (c : Dev nD) (t : Fin cfg1.N) (i : Fin 128) (j : Fin 128) :
    iblk1 (F := Ideal) V c 5 t (ix2 i j) = V c main_v9 (ix2 i j) := by
  unfold iblk1
  rw [View.read_apply]
  show V c main_v9 (((cfg1.win 5).blk t).view.emb (ix2 i j)) = _
  refine congrArg (V c main_v9) ?_
  obtain ⟨a0, a1, b0, b1, c0, c1, d0, d1, e0, e1, f0, f1, g0, g1, h0, h1⟩ := idx_facts1 t
  funext a; apply Fin.ext
  match a with
  | ⟨0, _⟩ => show win1_5.index t (0 : Fin 2) * 128 + 1 * i.val = i.val; rw [f0]; omega
  | ⟨1, _⟩ => show win1_5.index t (1 : Fin 2) * 128 + 1 * j.val = j.val; rw [f1]; omega

/-- The second bias's one block is the whole array, at every point. -/
theorem rd6 (c : Dev nD) (t : Fin cfg1.N) (i : Fin 1) (j : Fin 128) :
    iblk1 (F := Ideal) V c 6 t (ix2 i j) = V c main_v11 (ix2 i j) := by
  unfold iblk1
  rw [View.read_apply]
  show V c main_v11 (((cfg1.win 6).blk t).view.emb (ix2 i j)) = _
  refine congrArg (V c main_v11) ?_
  obtain ⟨a0, a1, b0, b1, c0, c1, d0, d1, e0, e1, f0, f1, g0, g1, h0, h1⟩ := idx_facts1 t
  funext a; apply Fin.ext
  match a with
  | ⟨0, _⟩ => show win1_6.index t (0 : Fin 2) * 1 + 1 * i.val = i.val; rw [g0]; omega
  | ⟨1, _⟩ => show win1_6.index t (1 : Fin 2) * 128 + 1 * j.val = j.val; rw [g1]; omega

/-- Row p, channel q of the output block at point t sits at edge t·4000 + p, channel q of the array. -/
theorem emb7 (t : Fin cfg1.N) (p : Fin 4000) (q : Fin 128) :
    (((cfg1.win 7).blk t).view.emb (ix2 p q) : S800000x128.Idx) = ix2 (row t p) q := by
  obtain ⟨a0, a1, b0, b1, c0, c1, d0, d1, e0, e1, f0, f1, g0, g1, h0, h1⟩ := idx_facts1 t
  funext a; apply Fin.ext
  match a with
  | ⟨0, _⟩ => show win1_7.index t (0 : Fin 2) * 4000 + 1 * p.val = t.val * 4000 + p.val; rw [h0]; omega
  | ⟨1, _⟩ => show win1_7.index t (1 : Fin 2) * 128 + 1 * q.val = q.val; rw [h1]; omega

/-! ## From the blocks to the array -/

/-- The per-edge message of the arrays the region is entered with. -/
abbrev G7 (c : Dev nD) : Cert.Spec.Arr 800000 128 :=
  Cert.Spec.msg (fun e => V c main_v7 (ix2 e (0 : Fin 1))) (V c main_arg3) (V c main_v6) (V c main_v8)
    (fun f => V c main_v10 (ix2 (0 : Fin 1) f)) (V c main_v9) (fun f => V c main_v11 (ix2 (0 : Fin 1) f))

/-- What point t writes back is block t of the per-edge message. -/
theorem flushed_eq (c : Dev nD) (t : Fin cfg1.N) :
    (dat1 (F := Ideal) V c).flushed 7 t = ((cfg1.win 7).blk t).view.read (Elt Ideal) (G7 V c) := by
  show (cfg1.win 7).cut (grid1.coords t) ((dat1 (F := Ideal) V c).after 7 t) = _
  rw [after1_7]
  unfold out1_7
  rw [View.canon_unit_zero hz]
  simp only [View.ld_unit_zero (S := S4000x1) hz, View.ld_unit_zero (S := S4000x50) hz, View.ld_unit_zero (S := S4000x128) hz,
    View.ld_unit_zero (S := S50x128) hz, View.ld_unit_zero (S := S1x128) hz, View.ld_unit_zero (S := S128x128) hz]
  funext j
  obtain ⟨p, q, rfl⟩ : ∃ (p : Fin 4000) (q : Fin 128), j = ix2 p q := ⟨j 0, j 1, eq_ix2 j⟩
  rw [View.read_apply]
  show k1_pay1 (F := Ideal) (k1_pay2 (iblk1 V c 0 t)) (k1_pay3 (iblk1 V c 1 t) (iblk1 V c 3 t) (iblk1 V c 4 t) (iblk1 V c 5 t))
        (iblk1 V c 6 t) (iblk1 V c 2 t) (ix2 p q)
      = Cert.Spec.msg (fun e => V c main_v7 (ix2 e (0 : Fin 1))) (V c main_arg3) (V c main_v6) (V c main_v8)
          (fun f => V c main_v10 (ix2 (0 : Fin 1) f)) (V c main_v9) (fun f => V c main_v11 (ix2 (0 : Fin 1) f))
          (((cfg1.win 7).blk t).view.emb (ix2 p q) : S800000x128.Idx)
  rw [emb7, Cert.Spec.msg_apply, pay1_apply, pay2_apply, pay3_apply, rd0, rd2, rd6]
  unfold Cert.Spec.msgAt Cert.Spec.z2At Cert.Spec.hidAt Cert.Spec.denseAt
  simp only [rd1, rd3, rd4, rd5]

/-- An index of the array is in point t's block iff each coordinate is in the block's range on its axis. -/
theorem mem_blk (t : Fin cfg1.N) (i : S800000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v12).slice (win1_7.rect t)).set ↔ _
  rw [View.set_slice_whole, Rect.mem_set_unit]
  exact Iff.rfl

/-- Every edge row is in the block of the point numbered by its quotient by 4000. -/
theorem cover (i : S800000x128.Idx) :
    ∃ t : Fin cfg1.N, (cfg1.win 7).flush t = true ∧ i ∈ ((cfg1.win 7).blk t).view.set := by
  have hi0 : (i 0).val < 800000 := (i 0).isLt
  have hi1 : (i 1).val < 128 := (i 1).isLt
  obtain ⟨t, ht⟩ : ∃ t : Fin cfg1.N, t.val = (i 0).val / 4000 :=
    ⟨⟨(i 0).val / 4000, lt_of_lt_of_eq (by omega) N_1.symm⟩, rfl⟩
  obtain ⟨a0, a1, b0, b1, c0, c1, d0, d1, e0, e1, f0, f1, g0, g1, h0, h1⟩ := idx_facts1 t
  refine ⟨t, flush1_7 t, ?_⟩
  rw [mem_blk]
  intro a
  match a with
  | ⟨0, _⟩ =>
    show win1_7.index t (0 : Fin 2) * 4000 ≤ (i 0).val ∧ (i 0).val < win1_7.index t (0 : Fin 2) * 4000 + 4000
    rw [h0, ht]; omega
  | ⟨1, _⟩ =>
    show win1_7.index t (1 : Fin 2) * 128 ≤ (i 1).val ∧ (i 1).val < win1_7.index t (1 : Fin 2) * 128 + 128
    rw [h1]; omega

/-- The region's output array, after its two hundred write-backs, is the per-edge message of the arrays as the region
    finds them. -/
theorem final1 (c : Dev nD) :
    (dat1 (F := Ideal) V c).arrAt 7 cfg1.N
      = Cert.Spec.msg (fun e => V c main_v7 (ix2 e (0 : Fin 1))) (V c main_arg3) (V c main_v6) (V c main_v8)
          (fun f => V c main_v10 (ix2 (0 : Fin 1) f)) (V c main_v9) (fun f => V c main_v11 (ix2 (0 : Fin 1) f)) :=
  (dat1 (F := Ideal) V c).arrAt_eq_of_cover 7 (G7 V c) (fun t _ => flushed_eq V c t) cover

end Cert.KernelIdeal.Region1

end
-- ==== Proof.KRegion2.lean ====
/-
  The third kernel region: ten blocks of 5000 node rows; each row is (h1 + agg) times the 128×128 weight plus the bias.
-/
import proofs.«424846_j70944269795976_2_alg».proof.Proof.Gen.KernelIdeal.Frame
import proofs.«424846_j70944269795976_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of the body's whole-buffer accesses, as a constant function. -/
theorem hz : (![0, 0] : Fin 2 → Nat) = fun _ => 0 := funext fun a => by fin_cases a <;> rfl

/-! ## The product's operand indices, axis by axis -/

/-- The left operand is read in the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the summation index. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the summation index. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand is read in the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The body's value at an index -/

/-- Entry (p, q) of what the body stores: row p of the sum of the two node blocks against column q of the weight, plus
    entry q of the bias row. The casts to the same shape and the roundings are the identity over the extended reals; the
    product into a zero accumulator is the plain sum over the 128 channels. -/
theorem pay2 (x0 x1 : FVec Ideal S5000x128 .f32) (x2 : FVec Ideal S128x128 .f32) (x3 : FVec Ideal S1x128 .f32) (p : Fin 5000) (q : Fin 128) :
    k2_pay1 (F := Ideal) x0 x1 x2 x3 (ix2 p q) = (∑ k : Fin 128, (x0 (ix2 p k) + x1 (ix2 p k)) * x2 (ix2 k q)) + x3 (ix2 (0 : Fin 1) q) := by
  unfold k2_pay1
  simp only [shapeCast_self]
  rw [addf_apply]
  refine congrArg₂ (· + ·) ?_ ?_
  · show FloatOps.matmul dot_S5000x128_S128x128_S5000x128_1_0_0_1_n_n none (truncf FTy.bf16 (addf x0 x1) bitsLt_bf16_f32)
        (truncf FTy.bf16 x2 bitsLt_bf16_f32) (constant S5000x128 .f32 0x00000000#32) (ix2 p q) = _
    rw [Ideal.matmul_constant_zero_apply, ← Equiv.sum_comp (contrEquiv1 dot_S5000x128_S128x128_S5000x128_1_0_0_1_n_n 128 rfl rfl).symm]
    refine Finset.sum_congr rfl fun k _ => ?_
    have hk := contrEquiv1_symm_val dot_S5000x128_S128x128_S5000x128_1_0_0_1_n_n 128 rfl rfl k
    have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
      match a with
      | ⟨0, _⟩ => exact lhs_row _ _
      | ⟨1, _⟩ => exact (lhs_col _ _).trans hk)
    have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
      match a with
      | ⟨0, _⟩ => exact (rhs_row _ _).trans hk
      | ⟨1, _⟩ => exact rhs_col _ _)
    rw [el, er]
    rfl
  · exact broadcastTo_apply x3 broadcasts_S1x128_S5000x128 (ix2 p q) (ix2 (0 : Fin 1) q) (fun a => match a with
      | ⟨0, _⟩ => rfl
      | ⟨1, _⟩ => rfl)

/-! ## The printed index maps over the grid -/

/-- Decided once over the ten points: the two node windows move with the output window along the rows, the weight and the
    bias stay at their one block, and the output's row block index is at most 9, its column block index 0. -/
theorem idx_facts : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (1 : Fin 2) = 0
    ∧ win2_4.index t (0 : Fin 2) ≤ 9 :=
  (by decide +kernel : ∀ t : Fin grid2.N, _)

/-- Every one of the ten row blocks is some point's. -/
theorem idx_onto : ∀ q : Fin 10, ∃ t : Fin cfg2.N, win2_4.index t = ![q.val, 0] :=
  (by decide +kernel : ∀ q : Fin 10, ∃ t : Fin grid2.N, win2_4.index t = ![q.val, 0])

/-- The array row that row `p` of point `t`'s block is: the block index times 5000 plus `p`. -/
def row (t : Fin cfg2.N) (p : Fin 5000) : Fin 50000 :=
  ⟨win2_4.index t (0 : Fin 2) * 5000 + p.val, by
    obtain ⟨-, -, -, -, -, -, -, -, -, h9⟩ := idx_facts t
    have hp : p.val < 5000 := p.isLt
    omega⟩

/-! ## Where each block's entries sit in its array -/

/-- Entry (p, q) of the output's block at point `t` is entry (row t p, q) of the array. -/
theorem out_emb (t : Fin cfg2.N) (p : Fin 5000) (q : Fin 128) :
    ((cfg2.win 4).blk t).view.emb (ix2 p q) = (ix2 (row t p) q : S50000x128.Idx) := by
  obtain ⟨-, -, -, -, -, -, -, -, e1, -⟩ := idx_facts t
  funext a; apply Fin.ext
  match a with
  | ⟨0, _⟩ => show win2_4.index t (0 : Fin 2) * 5000 + 1 * p.val = win2_4.index t (0 : Fin 2) * 5000 + p.val; omega
  | ⟨1, _⟩ => show win2_4.index t (1 : Fin 2) * 128 + 1 * q.val = q.val; omega

/-- The first node block at point `t` reads the first node array in the output block's rows. -/
theorem blk0_apply (c : Dev nD) (t : Fin cfg2.N) (p : Fin 5000) (k : Fin 128) :
    iblk2 (F := Ideal) V c 0 t (ix2 p k) = (V c main_v1 : Cert.Spec.Arr 50000 128) (ix2 (row t p) k) := by
  obtain ⟨e0, e1, -⟩ := idx_facts t
  show (V c main_v1 : Cert.Spec.Arr 50000 128) (((cfg2.win 0).blk t).view.emb (ix2 p k)) = _
  refine congrArg (V c main_v1 : Cert.Spec.Arr 50000 128) (funext fun a => Fin.ext ?_)
  match a with
  | ⟨0, _⟩ => show win2_0.index t (0 : Fin 2) * 5000 + 1 * p.val = win2_4.index t (0 : Fin 2) * 5000 + p.val; omega
  | ⟨1, _⟩ => show win2_0.index t (1 : Fin 2) * 128 + 1 * k.val = k.val; omega

/-- The second node block at point `t` reads the second node array in the output block's rows. -/
theorem blk1_apply (c : Dev nD) (t : Fin cfg2.N) (p : Fin 5000) (k : Fin 128) :
    iblk2 (F := Ideal) V c 1 t (ix2 p k) = (V c main_v15 : Cert.Spec.Arr 50000 128) (ix2 (row t p) k) := by
  obtain ⟨-, -, e0, e1, -⟩ := idx_facts t
  show (V c main_v15 : Cert.Spec.Arr 50000 128) (((cfg2.win 1).blk t).view.emb (ix2 p k)) = _
  refine congrArg (V c main_v15 : Cert.Spec.Arr 50000 128) (funext fun a => Fin.ext ?_)
  match a with
  | ⟨0, _⟩ => show win2_1.index t (0 : Fin 2) * 5000 + 1 * p.val = win2_4.index t (0 : Fin 2) * 5000 + p.val; omega
  | ⟨1, _⟩ => show win2_1.index t (1 : Fin 2) * 128 + 1 * k.val = k.val; omega

/-- The weight's one block is the weight. -/
theorem blk2_apply (c : Dev nD) (t : Fin cfg2.N) (k : Fin 128) (q : Fin 128) :
    iblk2 (F := Ideal) V c 2 t (ix2 k q) = (V c main_v16 : Cert.Spec.Arr 128 128) (ix2 k q) := by
  obtain ⟨-, -, -, -, e0, e1, -⟩ := idx_facts t
  show (V c main_v16 : Cert.Spec.Arr 128 128) (((cfg2.win 2).blk t).view.emb (ix2 k q)) = _
  refine congrArg (V c main_v16 : Cert.Spec.Arr 128 128) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- The bias row's one block is the bias row. -/
theorem blk3_apply (c : Dev nD) (t : Fin cfg2.N) (q : Fin 128) :
    iblk2 (F := Ideal) V c 3 t (ix2 (0 : Fin 1) q) = (V c main_v17 : Cert.Spec.Arr 1 128) (ix2 (0 : Fin 1) q) := by
  obtain ⟨-, -, -, -, -, -, e0, e1, -⟩ := idx_facts t
  show (V c main_v17 : Cert.Spec.Arr 1 128) (((cfg2.win 3).blk t).view.emb (ix2 (0 : Fin 1) q)) = _
  refine congrArg (V c main_v17 : Cert.Spec.Arr 1 128) (funext fun a => Fin.ext ?_)
  match a with
  | ⟨0, _⟩ => show win2_3.index t (0 : Fin 2) * 1 + 1 * (0 : Fin 1).val = (0 : Fin 1).val; omega
  | ⟨1, _⟩ => show win2_3.index t (1 : Fin 2) * 128 + 1 * q.val = q.val; omega

/-! ## What a point writes back -/

/-- What point `t` writes back is block `t` of the combine stage of the four arrays as the region finds them. -/
theorem flushed_eq (c : Dev nD) (t : Fin cfg2.N) :
    (dat2 (F := Ideal) V c).flushed 4 t
      = ((cfg2.win 4).blk t).view.read (Elt Ideal)
          (Cert.Spec.out (V c main_v1) (V c main_v15) (V c main_v16) (fun f => V c main_v17 (ix2 (0 : Fin 1) f))) := by
  show (cfg2.win 4).cut (grid2.coords t) ((dat2 (F := Ideal) V c).after 4 t) = _
  rw [after2_4]
  unfold out2_4
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (pay2 _ _ _ _ p q).trans ?_
  show _ = Cert.Spec.out (V c main_v1) (V c main_v15) (V c main_v16) (fun f => V c main_v17 (ix2 (0 : Fin 1) f))
      (((cfg2.win 4).blk t).view.emb (ix2 p q))
  rw [out_emb, Cert.Spec.out_apply, blk3_apply]
  unfold Cert.Spec.outAt
  refine congrArg₂ (· + ·) (Finset.sum_congr rfl fun k _ => ?_) rfl
  rw [blk0_apply, blk1_apply, blk2_apply]

/-! ## The ten blocks tile the array -/

/-- An index of the array is in point `t`'s block iff each coordinate is in the block's range on its axis. -/
theorem mem_blk (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v18).slice (win2_4.rect t)).set ↔ _
  rw [View.set_slice_whole, Rect.mem_set_unit]
  exact Iff.rfl

/-- Row r of the array is in the block of the point whose row block index is r / 5000; every point writes back. -/
theorem cover (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The region's output array, after its ten write-backs, is the combine stage of the arrays as the region finds them. -/
theorem final2 (c : Dev nD) :
    (dat2 (F := Ideal) V c).arrAt 4 cfg2.N
      = Cert.Spec.out (V c main_v1) (V c main_v15) (V c main_v16) (fun f => V c main_v17 (ix2 (0 : Fin 1) f)) :=
  (dat2 (F := Ideal) V c).arrAt_eq_of_cover 4
    (Cert.Spec.out (V c main_v1) (V c main_v15) (V c main_v16) (fun f => V c main_v17 (ix2 (0 : Fin 1) f)))
    (fun t _ => flushed_eq V c t) cover

end Cert.KernelIdeal.Region2

end
-- ==== Proof.PreRange.lean ====
/-
  What the precondition says of the edge list: every source-node index (row 1 of the edge list) lies in [0, 50000),
  the range of the node array it indexes. The precondition is the conjunction of ten finiteness tests and two
  "all entries" tests on that row; the last two conjuncts are read back entry by entry.
-/
import proofs.«424846_j70944269795976_2_alg».proof.Defs
import proofs.«424846_j70944269795976_2_alg».proof.Proof.Gen.KernelIdeal
import proofs.«424846_j70944269795976_2_alg».proof.Proof.Gen.Pre_finite_inputs
import Idealize.ShloMosaic.Lib.ReduceAll
import Idealize.ShloMosaic.Lib.ValueIdx

noncomputable section

namespace Cert.KernelIdeal.PreRange

open Cert.KernelIdeal Cert.KernelIdeal.Facts₀ Idealize.ShloMosaic Idealize.ShloMosaic.TcCoe Idealize.ShloMosaic.ValueIdx Idealize.SL.Sem

/-- The source node of each edge: row 1 of the edge list, as a flat array. -/
abbrev srcOf (x1 : IVec S2x800000 32) : IVec S800000 32 :=
  shapeCast S800000 (extractStridedSlice S1x800000 ![1, 0] x1 slices_S2x800000_S1x800000_1_0) shapeCasts_S1x800000_S800000

/-- The scalar shape has one index. -/
instance : Subsingleton S_.Idx := ⟨fun a b => funext fun d => d.elim0⟩

/-- Under the precondition every source-node index is a node: 0 ≤ src e < 50000 as signed integers. -/
theorem src_range (m : (ℓ : Loc nD τ sig) → Buf (Elt Ideal) ℓ) (hpre : Cert.Pre_KernelIdeal m) (c : Dev nD) (i : S800000.Idx) :
    0 ≤ (srcOf (m ((c.tc : Thread nD τ).loc main_arg1)) i).toInt ∧ (srcOf (m ((c.tc : Thread nD τ).loc main_arg1)) i).toInt < 50000 := by
  have h := congrFun (hpre c) ix0
  dsimp only [Cert.Pre_finite_inputs.fn, Cert.Pre_finite_inputs.fn_part1, Cert.Pre_finite_inputs.fn_part2, Cert.Pre_finite_inputs.fn_part3] at h
  -- the conjunction's last two members are the two tests on the source row
  obtain ⟨h54, h59⟩ := IntOp.andi_eq_one.1 h
  obtain ⟨-, h53⟩ := IntOp.andi_eq_one.1 h54
  -- an "all" that holds holds at every entry
  have g0 := Host.reduce_andi_all _ _ _ _ ix0 h53 i
  have g1 := Host.reduce_andi_all _ _ _ _ ix0 h59 i
  have g0' : IntOp.cmpi .sge (srcOf (m ((c.tc : Thread nD τ).loc main_arg1)) i) 0#32 = 1#1 := g0
  have g1' : IntOp.cmpi .slt (srcOf (m ((c.tc : Thread nD τ).loc main_arg1)) i) 50000#32 = 1#1 := g1
  have a := IntOp.cmpi_sge.1 g0'
  have b := IntOp.cmpi_slt.1 g1'
  have z0 : (0#32 : BitVec 32).toInt = 0 := by decide
  have z1 : (50000#32 : BitVec 32).toInt = 50000 := by decide
  rw [z0] at a
  rw [z1] at b
  exact ⟨a, b⟩

end Cert.KernelIdeal.PreRange

end
-- ==== Proof.Take.lean ====
/-
  The kernel's gather is a "take" in fill mode: a source index is first wrapped the NumPy way (a negative index counts
  from the end), then tested against [0, 49999]; rows whose index fails the test are filled with a not-a-number word, the
  others are gathered. When every source index is a node, 0 ≤ src < 50000, the wrap is the identity, the test holds on
  every row, and the take IS the plain gather at the wrapped index.
-/
import proofs.«424846_j70944269795976_2_alg».proof.Proof.PreRange

noncomputable section

namespace Cert.KernelIdeal.Take

open Cert.KernelIdeal Cert.KernelIdeal.Facts₀ Cert.KernelIdeal.PreRange
open Idealize.ShloMosaic Idealize.ShloMosaic.TcCoe Idealize.ShloMosaic.ValueIdx Idealize.SL.Sem

/-- A flat array of source indices after the negative wrap: s + 50000 where s < 0, s elsewhere. -/
def wrapFlat (s : IVec S800000 32) : IVec S800000 32 :=
  select (cmpi .slt s (broadcastInDim S800000 ![] bcast_S_S800000 (constantI S_ 32 0#32)))
    (addi s (broadcastInDim S800000 ![] bcast_S_S800000 (constantI S_ 32 50000#32)))
    s

/-- The wrapped indices as a column of start indices. -/
def wrapCol (s : IVec S800000 32) : IVec S800000x1 32 :=
  broadcastInDim S800000x1 ![0] bcast_S800000_S800000x1_0 (wrapFlat s)

/-- The in-bounds test of a column of start indices, one bit per row, laid along the 128 channels. -/
def inBounds (w : IVec S800000x1 32) : IVec S800000x128 1 :=
  broadcastInDim S800000x128 ![0] bcast_S800000_S800000x128_0
    (Host.reduce IntOp.andi
      (andi (cmpi .sge w (broadcastInDim S800000x1 ![] bcast_S_S800000x1 (constantI S_ 32 0#32)))
        (cmpi .sle w (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_)

/-- The take in fill mode: the gathered row where the index is in bounds, the not-a-number word elsewhere. -/
def takeFill {F : FTy → Type} [FloatOps F] (h1 : FVec F S50000x128 .f32) (s : IVec S800000 32) : FVec F S800000x128 .f32 :=
  select (inBounds (wrapCol s))
    (Host.gather gather_S50000x128_S800000x1_S800000x128_1_0_n_n_0_1_1128 h1 (wrapCol s))
    (broadcastInDim S800000x128 ![] bcast_S_S800000x128 (constant S_ .f32 0x7FC00000#32))

/-- A fold of "and" over one-bit words that are all 1, started at 1, is 1. -/
theorem foldl_andi_ones {ι : Type} (g : ι → BitVec 1) :
    ∀ (l : List ι), (∀ n ∈ l, g n = 1#1) → l.foldl (fun r n => IntOp.andi r (g n)) 1#1 = 1#1
  | [], _ => rfl
  | a :: l, hg => by
    have h11 : IntOp.andi 1#1 1#1 = 1#1 := by decide
    rw [List.foldl_cons, hg a List.mem_cons_self, h11]
    exact foldl_andi_ones g l fun n hn => hg n (List.mem_cons_of_mem _ hn)

/-- An "all" over an array of ones, started at one, is one at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_ones (fun n => x (s.rowMajor.symm n)) _ fun n _ => hx _

/-- The wrap read at an index, over any flat array of indices. -/
theorem wrap_apply (s : IVec S800000 32) (i : S800000.Idx) :
    (select (cmpi .slt s (broadcastInDim S800000 ![] bcast_S_S800000 (constantI S_ 32 0#32)))
      (addi s (broadcastInDim S800000 ![] bcast_S_S800000 (constantI S_ 32 50000#32))) s) i
    = Scalar.select (IntOp.cmpi .slt (s i) 0#32) (IntOp.addi (s i) 50000#32) (s i) := rfl

/-- Where the source index is not negative the wrap leaves it alone. -/
theorem wrapFlat_apply (s : IVec S800000 32) (i : S800000.Idx) (h0 : 0 ≤ (s i).toInt) :
    wrapFlat s i = s i := by
  have hc : IntOp.cmpi .slt (s i) 0#32 = 0#1 := eq_zero_of_ne_one fun h => by
    have hlt := IntOp.cmpi_slt.1 h
    have z0 : (0#32 : BitVec 32).toInt = 0 := by decide
    rw [z0] at hlt
    omega
  unfold wrapFlat
  rw [wrap_apply s i, hc, select_zero]

/-- A fact about every entry of a flat array holds at every entry of the column laid from it. -/
theorem col_all {P : BitVec 32 → Prop} (v : IVec S800000 32) (hv : ∀ i, P (v i)) (y : S800000x1.Idx) :
    P (broadcastInDim S800000x1 ![0] bcast_S800000_S800000x1_0 v y) := hv _

/-- The in-bounds test of one row, over any column of indices: both comparisons hold when 0 ≤ w ≤ 49999. -/
theorem row_test (w : IVec S800000x1 32) (y : S800000x1.Idx) (a : 0 ≤ (w y).toInt) (b : (w y).toInt ≤ 49999) :
    (andi (cmpi .sge w (broadcastInDim S800000x1 ![] bcast_S_S800000x1 (constantI S_ 32 0#32)))
      (cmpi .sle w (broadcastInDim S800000x1 ![0, 1] bcast_S1x1_S800000x1_0_1
        (broadcastInDim S1x1 ![1] bcast_S1_S1x1_1 (constantI S1 32 49999#32))))) y = 1#1 := by
  have key : (andi (cmpi .sge w (broadcastInDim S800000x1 ![] bcast_S_S800000x1 (constantI S_ 32 0#32)))
      (cmpi .sle w (broadcastInDim S800000x1 ![0, 1] bcast_S1x1_S800000x1_0_1
        (broadcastInDim S1x1 ![1] bcast_S1_S1x1_1 (constantI S1 32 49999#32))))) y
      = IntOp.andi (IntOp.cmpi .sge (w y) 0#32) (IntOp.cmpi .sle (w y) 49999#32) := rfl
  rw [key]
  refine IntOp.andi_eq_one.2 ⟨IntOp.cmpi_sge.2 ?_, IntOp.cmpi_sle.2 ?_⟩
  · have z0 : (0#32 : BitVec 32).toInt = 0 := by decide
    rw [z0]; exact a
  · have z1 : (49999#32 : BitVec 32).toInt = 49999 := by decide
    rw [z1]; exact b

/-- When every source index is a node, every wrapped index passes the in-bounds test. -/
theorem inBounds_wrapCol (s : IVec S800000 32)
    (hr : ∀ i : S800000.Idx, 0 ≤ (s i).toInt ∧ (s i).toInt < 50000) (j : S800000x128.Idx) :
    inBounds (wrapCol s) j = 1#1 := by
  -- the wrapped index is the source index itself, so it lies in [0, 49999]
  have hw : ∀ i : S800000.Idx, 0 ≤ (wrapFlat s i).toInt ∧ (wrapFlat s i).toInt ≤ 49999 := fun i => by
    rw [wrapFlat_apply s i (hr i).1]
    have := hr i
    omega
  have hc : ∀ y : S800000x1.Idx, 0 ≤ (wrapCol s y).toInt ∧ (wrapCol s y).toInt ≤ 49999 := fun y =>
    col_all (P := fun b => 0 ≤ b.toInt ∧ b.toInt ≤ 49999) (wrapFlat s) hw y
  unfold inBounds
  exact reduce_andi_ones _ _ _ _ (fun y => row_test (wrapCol s) y (hc y).1 (hc y).2) (fun _ => rfl) _

/-- THE TAKE IS THE GATHER when every source index is a node. -/
theorem takeFill_eq_gather {F : FTy → Type} [FloatOps F] (h1 : FVec F S50000x128 .f32) (s : IVec S800000 32)
    (hr : ∀ i : S800000.Idx, 0 ≤ (s i).toInt ∧ (s i).toInt < 50000) :
    takeFill h1 s = Host.gather gather_S50000x128_S800000x1_S800000x128_1_0_n_n_0_1_1128 h1 (wrapCol s) := by
  funext j
  unfold takeFill
  rw [select_apply, inBounds_wrapCol s hr j, select_one]

end Cert.KernelIdeal.Take

end
-- ==== Proof.KValue.lean ====
/-
  The idealized kernel's result as one function of its argument arrays.

  @main is three kernel regions among stretches of host operations. Read backwards from the last boundary:
  the result is the third region's output, the combine stage of h1 and agg; agg is the host's scatter-add of the second
  region's output, the per-edge message over the gathered rows; the gathered rows are the host's take (fill mode) of h1
  at the wrapped source indices; h1 is the first region's output, the dense layer of the node features. Every other
  buffer a region reads is a transpose or a reshape of an argument, which no region and no earlier operation writes.
  When every source index is a node the take is the plain gather.
-/
import proofs.«424846_j70944269795976_2_alg».proof.Proof.KRun
import proofs.«424846_j70944269795976_2_alg».proof.Proof.KRegion0
import proofs.«424846_j70944269795976_2_alg».proof.Proof.KRegion1
import proofs.«424846_j70944269795976_2_alg».proof.Proof.KRegion2
import proofs.«424846_j70944269795976_2_alg».proof.Proof.Take
import Idealize.ShloMosaic.Lib.StableHlo.Run
import Idealize.ShloMosaic.Lib.ValueLayout

set_option maxRecDepth 16384

noncomputable section

namespace Cert.KernelIdeal.KValue

open Cert.KernelIdeal Cert.KernelIdeal.Gen Cert.KernelIdeal.Take Cert.KernelIdeal.PreRange
open Idealize.ShloMosaic Idealize.ShloMosaic.TcCoe Idealize.ShloMosaic.ValueIdx Idealize.SL.Sem Idealize.ShloMosaic.StableHlo

/-! ## The function -/

/-- The node features after the first dense layer. -/
def h1Of (x0 : FVec Ideal S50000x128 .f32) (x4 : FVec Ideal S128x128 .f32) : FVec Ideal S50000x128 .f32 :=
  Cert.Spec.dense x0 (transpose S128x128 [1, 0] x4 transposes_S128x128_S128x128_1_0)

/-- The destination node of each edge (row 0 of the edge list) as a column of scatter indices. -/
def dstCol (x1 : IVec S2x800000 32) : IVec S800000x1 32 :=
  broadcastInDim S800000x1 ![0] bcast_S800000_S800000x1_0
    (shapeCast S800000 (extractStridedSlice S1x800000 ![0, 0] x1 slices_S2x800000_S1x800000_0_0) shapeCasts_S1x800000_S800000)

/-- The layer's output over a given array `g` of gathered rows. -/
def totalOf (g : FVec Ideal S800000x128 .f32) (x0 : FVec Ideal S50000x128 .f32) (x1 : IVec S2x800000 32)
    (x2 : FVec Ideal S800000 .f32) (x3 : FVec Ideal S800000x50 .f32) (x4 : FVec Ideal S128x128 .f32) (x5 : FVec Ideal S128x50 .f32)
    (x6 : FVec Ideal S128 .f32) (x7 : FVec Ideal S128x128 .f32) (x8 : FVec Ideal S128 .f32) (x9 : FVec Ideal S128x128 .f32)
    (x10 : FVec Ideal S128 .f32) : FVec Ideal S50000x128 .f32 :=
  Cert.Spec.out (h1Of x0 x4)
    (Host.scatterAdd (F := Ideal) scatter_S50000x128_S800000x1_S800000x128_1_0_0_1
      (broadcastInDim S50000x128 ![] bcast_S_S50000x128 (constant (F := Ideal) S_ .f32 0x00000000#32))
      (dstCol x1)
      (Cert.Spec.msg (fun e => x2 (ix1 e)) x3 g (transpose S50x128 [1, 0] x5 transposes_S128x50_S50x128_1_0)
        (fun f => x6 (ix1 f)) (transpose S128x128 [1, 0] x7 transposes_S128x128_S128x128_1_0) (fun f => x8 (ix1 f))))
    (transpose S128x128 [1, 0] x9 transposes_S128x128_S128x128_1_0) (fun f => x10 (ix1 f))

/-- A flat array reshaped to a column reads, at (e, 0), the array at e. -/
theorem col_read {α : Type} {E : ℕ} (x : (⟨1, ![E]⟩ : Shape).Idx → α) (h : (⟨1, ![E]⟩ : Shape).ShapeCasts ⟨2, ![E, 1]⟩)
    (e : Fin E) (u : Fin 1) : shapeCast ⟨2, ![E, 1]⟩ x h (ix2 e u) = x (ix1 e) :=
  shapeCast_apply x h _ _ (by
    have hu : u.val = 0 := by omega
    rw [Shape.rowMajor_val_two, Shape.rowMajor_val_one]
    show e.val = e.val * 1 + u.val
    omega)

variable (m : (ℓ : Loc nD τ sig) → Buf (Elt Ideal) ℓ) (ρ : Dev nD → PrngReg)

/-! ## The boundary after the first region -/

/-- After the first region a buffer that is none of its arrays and is not the transposed weight holds its launch contents. -/
theorem W2_launch (c : Dev nD) (b : Ref sig .tc) (h0 : ∀ w, Pipeline.arrRef spec0 w ≠ b) (h1 : b ≠ main_v0) :
    W2 m ρ c (Proc.devRef .tc b) = m ((c : Thread nD τ).loc b) :=
  (W2_of_ne m ρ c b h0).trans
    (StableHlo.after_of_forall_not_mem (b := Proc.devRef .tc b) _ _ (List.forall_iff_forall_mem.mp (by
      simp only [hostOps0, List.Forall, StableHlo.unary_writes, Finset.mem_singleton]
      exact StableHlo.devRef_ne_of_ne h1)))

/-- The first region's output is the dense layer of the node features. -/
theorem h1_eq (c : Dev nD) :
    W2 m ρ c (Proc.devRef .tc main_v1) = h1Of (m ((c : Thread nD τ).loc main_arg0)) (m ((c : Thread nD τ).loc main_arg4)) := by
  refine (W2_arr m ρ c 2).trans ((Region0.final0 (V1 m ρ) c).trans ?_)
  have e0 : V1 m ρ c main_arg0 = m ((c : Thread nD τ).loc main_arg0) := by
    show StableHlo.after hostOps0 (W0 m ρ c) (Proc.devRef .tc main_arg0) = _
    after_results_simp <;> rfl
  have e1 : V1 m ρ c main_v0 = transpose S128x128 [1, 0] (m ((c : Thread nD τ).loc main_arg4)) transposes_S128x128_S128x128_1_0 := by
    show StableHlo.after hostOps0 (W0 m ρ c) (Proc.devRef .tc main_v0) = _
    after_results_simp <;> rfl
  rw [e0, e1]
  rfl

/-! ## The second region's entry, read back to the launch memory -/

set_option maxHeartbeats 4000000 in
theorem V5_v7 (c : Dev nD) :
    V5 m ρ c main_v7 = shapeCast S800000x1 (m ((c : Thread nD τ).loc main_arg2)) shapeCasts_S800000_S800000x1 := by
  show StableHlo.after hostOps1_2 (StableHlo.after hostOps1_1 (StableHlo.after hostOps1 (W2 m ρ c))) (Proc.devRef .tc main_v7) = _
  after_results_simp
  rw [W2_launch m ρ c main_arg2 (by decide) (by decide)]
  rfl

set_option maxHeartbeats 4000000 in
theorem V5_arg3 (c : Dev nD) : V5 m ρ c main_arg3 = m ((c : Thread nD τ).loc main_arg3) := by
  show StableHlo.after hostOps1_2 (StableHlo.after hostOps1_1 (StableHlo.after hostOps1 (W2 m ρ c))) (Proc.devRef .tc main_arg3) = _
  after_results_simp
  exact W2_launch m ρ c main_arg3 (by decide) (by decide)

set_option maxHeartbeats 4000000 in
theorem V5_v8 (c : Dev nD) :
    V5 m ρ c main_v8 = transpose S50x128 [1, 0] (m ((c : Thread nD τ).loc main_arg5)) transposes_S128x50_S50x128_1_0 := by
  show StableHlo.after hostOps1_2 (StableHlo.after hostOps1_1 (StableHlo.after hostOps1 (W2 m ρ c))) (Proc.devRef .tc main_v8) = _
  after_results_simp
  rw [W2_launch m ρ c main_arg5 (by decide) (by decide)]

set_option maxHeartbeats 4000000 in
theorem V5_v9 (c : Dev nD) :
    V5 m ρ c main_v9 = transpose S128x128 [1, 0] (m ((c : Thread nD τ).loc main_arg7)) transposes_S128x128_S128x128_1_0 := by
  show StableHlo.after hostOps1_2 (StableHlo.after hostOps1_1 (StableHlo.after hostOps1 (W2 m ρ c))) (Proc.devRef .tc main_v9) = _
  after_results_simp
  rw [W2_launch m ρ c main_arg7 (by decide) (by decide)]

set_option maxHeartbeats 4000000 in
theorem V5_v10 (c : Dev nD) :
    V5 m ρ c main_v10 = shapeCast S1x128 (m ((c : Thread nD τ).loc main_arg6)) shapeCasts_S128_S1x128 := by
  show StableHlo.after hostOps1_2 (StableHlo.after hostOps1_1 (StableHlo.after hostOps1 (W2 m ρ c))) (Proc.devRef .tc main_v10) = _
  after_results_simp
  rw [W2_launch m ρ c main_arg6 (by decide) (by decide)]
  rfl

set_option maxHeartbeats 4000000 in
theorem V5_v11 (c : Dev nD) :
    V5 m ρ c main_v11 = shapeCast S1x128 (m ((c : Thread nD τ).loc main_arg8)) shapeCasts_S128_S1x128 := by
  show StableHlo.after hostOps1_2 (StableHlo.after hostOps1_1 (StableHlo.after hostOps1 (W2 m ρ c))) (Proc.devRef .tc main_v11) = _
  after_results_simp
  rw [W2_launch m ρ c main_arg8 (by decide) (by decide)]
  rfl

/-- A transport there and back is the identity. -/
theorem cast_cast_id {A B : Type} (h : A = B) (h' : B = A) (v : A) : cast h' (cast h v) = v := by
  subst h; rfl

/-- Reading the source-row buffer at its own type changes nothing. -/
theorem v3_leaf (p : main_v3.ty = ⟨S800000, .i32⟩) (q : main_v3.space ≠ .host) (r : main_v3.isScoped = false)
    (v : main_v3.ty.Contents (Elt Ideal)) :
    (StableHlo.TRef.of (T := ⟨S800000, .i32⟩) main_v3 p q r).ofBuf v = v := rfl

/-- Reading the node-feature buffer at its own type changes nothing. -/
theorem v1_leaf (p : main_v1.ty = ⟨S50000x128, .f32⟩) (q : main_v1.space ≠ .host) (r : main_v1.isScoped = false)
    (v : main_v1.ty.Contents (Elt Ideal)) :
    (StableHlo.TRef.of (T := ⟨S50000x128, .f32⟩) main_v1 p q r).ofBuf v = v := rfl

/-- Writing the gathered-rows buffer at its own type changes nothing. -/
theorem v6_root (p : main_v6.ty = ⟨S800000x128, .f32⟩) (q : main_v6.space ≠ .host) (r : main_v6.isScoped = false)
    (v : (⟨S800000x128, .f32⟩ : BufTy).Contents (Elt Ideal)) :
    (StableHlo.TRef.of (T := ⟨S800000x128, .f32⟩) main_v6 p q r).toBuf v = v := rfl

set_option maxHeartbeats 8000000 in
/-- The gathered rows, in terms of the boundary after the first region: the host's take, in fill mode, of the first
    region's output at row 1 of the edge list. -/
theorem V5_v6_raw (c : Dev nD) :
    V5 m ρ c main_v6 = takeFill (F := Ideal) (W2 m ρ c (Proc.devRef .tc main_v1)) (srcOf (W2 m ρ c (Proc.devRef .tc main_arg1))) := by
  show StableHlo.after hostOps1_2 (StableHlo.after hostOps1_1 (StableHlo.after hostOps1 (W2 m ρ c))) (Proc.devRef .tc main_v6) = _
  after_results_simp
  -- every stage is written to and read from its buffer through a pair of transports: strip the pairs, then the ends
  simp only [cast_cast_id]
  rw [v6_root, v3_leaf, v1_leaf]
  -- the source row, which the walk spells through the buffer's own shape, is row 1 of the edge list
  generalize hS : (fun i => shapeCast main_v3.ty.shape
      (extractStridedSlice S1x800000 ![1, 0] (W2 m ρ c (Proc.devRef .tc main_arg1)) slices_S2x800000_S1x800000_1_0)
      shapeCasts_S1x800000_S800000 i) = S
  have e : S = srcOf (W2 m ρ c (Proc.devRef .tc main_arg1)) := hS ▸ rfl
  rw [e]
  unfold takeFill inBounds wrapCol wrapFlat
  with_reducible rfl

/-- The gathered rows: the take of the first region's output at the source indices of the launch memory. -/
theorem V5_v6 (c : Dev nD) :
    V5 m ρ c main_v6 = takeFill (F := Ideal) (W2 m ρ c (Proc.devRef .tc main_v1)) (srcOf (m ((c : Thread nD τ).loc main_arg1))) := by
  rw [V5_v6_raw, W2_launch m ρ c main_arg1 (by decide) (by decide)]

/-! ## The second region's output -/

/-- The second region's output is the per-edge message over the taken rows. -/
theorem msg_eq (c : Dev nD) :
    W6 m ρ c (Proc.devRef .tc main_v12)
      = Cert.Spec.msg (fun e => (m ((c : Thread nD τ).loc main_arg2)) (ix1 e)) (m ((c : Thread nD τ).loc main_arg3))
          (takeFill (F := Ideal) (h1Of (m ((c : Thread nD τ).loc main_arg0)) (m ((c : Thread nD τ).loc main_arg4))) (srcOf (m ((c : Thread nD τ).loc main_arg1))))
          (transpose S50x128 [1, 0] (m ((c : Thread nD τ).loc main_arg5)) transposes_S128x50_S50x128_1_0) (fun f => (m ((c : Thread nD τ).loc main_arg6)) (ix1 f))
          (transpose S128x128 [1, 0] (m ((c : Thread nD τ).loc main_arg7)) transposes_S128x128_S128x128_1_0) (fun f => (m ((c : Thread nD τ).loc main_arg8)) (ix1 f)) := by
  refine (W6_arr m ρ c 7).trans ((Region1.final1 (V5 m ρ) c).trans ?_)
  have ew : (fun e : Fin 800000 => V5 m ρ c main_v7 (ix2 e (0 : Fin 1))) = fun e => (m ((c : Thread nD τ).loc main_arg2)) (ix1 e) := by
    funext e; rw [V5_v7]; exact col_read _ _ e 0
  have b1 : (fun f : Fin 128 => V5 m ρ c main_v10 (ix2 (0 : Fin 1) f)) = fun f => (m ((c : Thread nD τ).loc main_arg6)) (ix1 f) := by
    funext f; rw [V5_v10]; exact shapeCast_a_1a_apply _ _ 0 f
  have b2 : (fun f : Fin 128 => V5 m ρ c main_v11 (ix2 (0 : Fin 1) f)) = fun f => (m ((c : Thread nD τ).loc main_arg8)) (ix1 f) := by
    funext f; rw [V5_v11]; exact shapeCast_a_1a_apply _ _ 0 f
  rw [ew, b1, b2, V5_arg3, V5_v6, V5_v8, V5_v9, h1_eq]

/-! ## The third region's entry, read back -/

set_option maxHeartbeats 4000000 in
/-- No operation between the first and the third region writes the first region's output. -/
theorem V7_v1 (c : Dev nD) : V7 m ρ c main_v1 = W2 m ρ c (Proc.devRef .tc main_v1) :=
  calc V7 m ρ c main_v1
    _ = W6 m ρ c (Proc.devRef .tc main_v1) := by
        show StableHlo.after hostOps2 (W6 m ρ c) (Proc.devRef .tc main_v1) = _
        after_results_simp
    _ = W5 m ρ c (Proc.devRef .tc main_v1) := W6_of_ne m ρ c main_v1 (by decide)
    _ = W2 m ρ c (Proc.devRef .tc main_v1) := by
        show StableHlo.after hostOps1_2 (StableHlo.after hostOps1_1 (StableHlo.after hostOps1 (W2 m ρ c))) (Proc.devRef .tc main_v1) = _
        after_results_simp

set_option maxHeartbeats 4000000 in
/-- The destination indices at the second region's exit are row 0 of the edge list. -/
theorem W6_v5 (c : Dev nD) :
    W6 m ρ c (Proc.devRef .tc main_v5)
      = shapeCast S800000 (extractStridedSlice S1x800000 ![0, 0] (m ((c : Thread nD τ).loc main_arg1)) slices_S2x800000_S1x800000_0_0) shapeCasts_S1x800000_S800000 := by
  refine (W6_of_ne m ρ c main_v5 (by decide)).trans ?_
  show StableHlo.after hostOps1_2 (StableHlo.after hostOps1_1 (StableHlo.after hostOps1 (W2 m ρ c))) (Proc.devRef .tc main_v5) = _
  after_results_simp
  rw [W2_launch m ρ c main_arg1 (by decide) (by decide)]
  rfl

set_option maxHeartbeats 4000000 in
/-- An argument no region and no operation writes holds its launch contents at the second region's exit. -/
theorem W6_arg9 (c : Dev nD) : W6 m ρ c (Proc.devRef .tc main_arg9) = (m ((c : Thread nD τ).loc main_arg9)) := by
  refine (W6_of_ne m ρ c main_arg9 (by decide)).trans ?_
  show StableHlo.after hostOps1_2 (StableHlo.after hostOps1_1 (StableHlo.after hostOps1 (W2 m ρ c))) (Proc.devRef .tc main_arg9) = _
  after_results_simp
  exact W2_launch m ρ c main_arg9 (by decide) (by decide)

set_option maxHeartbeats 4000000 in
theorem W6_arg10 (c : Dev nD) : W6 m ρ c (Proc.devRef .tc main_arg10) = (m ((c : Thread nD τ).loc main_arg10)) := by
  refine (W6_of_ne m ρ c main_arg10 (by decide)).trans ?_
  show StableHlo.after hostOps1_2 (StableHlo.after hostOps1_1 (StableHlo.after hostOps1 (W2 m ρ c))) (Proc.devRef .tc main_arg10) = _
  after_results_simp
  exact W2_launch m ρ c main_arg10 (by decide) (by decide)

/-- The aggregated messages: the host's scatter-add of the second region's output at the destination indices. -/
theorem V7_v15 (c : Dev nD) :
    V7 m ρ c main_v15 = Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 (W6 m ρ c (Proc.devRef .tc main_v5)))
      (W6 m ρ c (Proc.devRef .tc main_v12)) := by
  show StableHlo.after hostOps2 (W6 m ρ c) (Proc.devRef .tc main_v15) = _
  after_results

theorem V7_v16 (c : Dev nD) :
    V7 m ρ c main_v16 = transpose S128x128 [1, 0] (m ((c : Thread nD τ).loc main_arg9)) transposes_S128x128_S128x128_1_0 := by
  show StableHlo.after hostOps2 (W6 m ρ c) (Proc.devRef .tc main_v16) = _
  after_results
  rw [W6_arg9]

theorem V7_v17 (c : Dev nD) :
    V7 m ρ c main_v17 = shapeCast S1x128 (m ((c : Thread nD τ).loc main_arg10)) shapeCasts_S128_S1x128 := by
  show StableHlo.after hostOps2 (W6 m ρ c) (Proc.devRef .tc main_v17) = _
  after_results
  rw [W6_arg10]
  rfl

/-! ## The result -/

/-- THE RESULT ARRAY at the last boundary is the layer's output over the taken rows. -/
theorem out_take (c : Dev nD) :
    W8 m ρ c (Proc.devRef .tc main_v18)
      = totalOf (takeFill (F := Ideal) (h1Of (m ((c : Thread nD τ).loc main_arg0)) (m ((c : Thread nD τ).loc main_arg4))) (srcOf (m ((c : Thread nD τ).loc main_arg1)))) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W8_arr m ρ c 4).trans ((Region2.final2 (V7 m ρ) c).trans ?_)
  have b3 : (fun f : Fin 128 => V7 m ρ c main_v17 (ix2 (0 : Fin 1) f)) = fun f => (m ((c : Thread nD τ).loc main_arg10)) (ix1 f) := by
    funext f; rw [V7_v17]; exact shapeCast_a_1a_apply _ _ 0 f
  rw [b3, V7_v1, V7_v15, V7_v16, h1_eq, W6_v5, msg_eq]
  rfl

/-- When every source index is a node the taken rows are the gathered rows. -/
theorem out_gather (c : Dev nD)
    (hr : ∀ i : S800000.Idx, 0 ≤ (srcOf (m ((c : Thread nD τ).loc main_arg1)) i).toInt ∧ (srcOf (m ((c : Thread nD τ).loc main_arg1)) i).toInt < 50000) :
    W8 m ρ c (Proc.devRef .tc main_v18)
      = totalOf (Host.gather gather_S50000x128_S800000x1_S800000x128_1_0_n_n_0_1_1128
          (h1Of (m ((c : Thread nD τ).loc main_arg0)) (m ((c : Thread nD τ).loc main_arg4))) (wrapCol (srcOf (m ((c : Thread nD τ).loc main_arg1))))) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [out_take, takeFill_eq_gather _ _ hr]

end Cert.KernelIdeal.KValue

end
-- ==== Proof.Bridge.lean ====
/-
  The reference's result is the same function of the arguments as the kernel's.

  Unfolded to its stages the reference is: a dense layer h1; the filter chain times the rows of h1 gathered at the wrapped
  source indices; a scatter-add of that product at the destination indices; and the combine stage of h1 and the sum. The
  three arithmetic stretches are the specification's functions; the gather, the scatter-add, the transposes and the index
  arithmetic are the very host operations the kernel's program applies to the same arguments.
-/
import proofs.«424846_j70944269795976_2_alg».proof.Proof.RefValue
import proofs.«424846_j70944269795976_2_alg».proof.Proof.KValue

set_option maxRecDepth 16384

noncomputable section

namespace Cert.Bridge

open Idealize.ShloMosaic Idealize.ShloMosaic.TcCoe Idealize.ShloMosaic.ValueIdx
open Cert.ReferenceIdeal.Read Cert.ReferenceIdeal.RefValue

/-- The two programs print the same gather: one record of dimension numbers, spelled once per program. -/
theorem gather_dims_eq :
    Cert.ReferenceIdeal.gather_S50000x128_S800000x1_S800000x128_1_0_n_n_0_1_1128
      = Cert.KernelIdeal.gather_S50000x128_S800000x1_S800000x128_1_0_n_n_0_1_1128 := rfl

/-- Likewise the scatter-add. -/
theorem scatter_dims_eq :
    Cert.ReferenceIdeal.scatter_S50000x128_S800000x1_S800000x128_1_0_0_1
      = Cert.KernelIdeal.scatter_S50000x128_S800000x1_S800000x128_1_0_0_1 := rfl

set_option maxHeartbeats 2000000 in
/-- The reference's result term is the layer's output over the gathered rows. -/
theorem ref_total (x0 : FVec Ideal Cert.ReferenceIdeal.S50000x128 .f32) (x1 : IVec Cert.ReferenceIdeal.S2x800000 32) (x2 : FVec Ideal Cert.ReferenceIdeal.S800000 .f32) (x3 : FVec Ideal Cert.ReferenceIdeal.S800000x50 .f32) (x4 : FVec Ideal Cert.ReferenceIdeal.S128x128 .f32) (x5 : FVec Ideal Cert.ReferenceIdeal.S128x50 .f32) (x6 : FVec Ideal Cert.ReferenceIdeal.S128 .f32) (x7 : FVec Ideal Cert.ReferenceIdeal.S128x128 .f32) (x8 : FVec Ideal Cert.ReferenceIdeal.S128 .f32) (x9 : FVec Ideal Cert.ReferenceIdeal.S128x128 .f32) (x10 : FVec Ideal Cert.ReferenceIdeal.S128 .f32) :
    val_main_v50 (F := Ideal) x0 x1 x2 x3 x4 x5 x6 x7 x8 x9 x10
      = Cert.KernelIdeal.KValue.totalOf
          (Host.gather Cert.KernelIdeal.gather_S50000x128_S800000x1_S800000x128_1_0_n_n_0_1_1128
            (Cert.KernelIdeal.KValue.h1Of x0 x4) (Cert.KernelIdeal.Take.wrapCol (Cert.KernelIdeal.PreRange.srcOf x1)))
          x0 x1 x2 x3 x4 x5 x6 x7 x8 x9 x10 := by
  unfold val_main_v50 val_main_v47 val_main_v45 val_main_v44 val_main_v39 val_main_v38 val_main_v1
  rw [dense_nodes x0 (val_main_v0 (F := Ideal) x4), msg_eq, out_eq, gather_dims_eq, scatter_dims_eq]
  -- what is left on both sides is the same host operations on the same arguments, spelled in each program's names
  unfold Cert.KernelIdeal.KValue.totalOf Cert.KernelIdeal.KValue.h1Of Cert.KernelIdeal.KValue.dstCol
    Cert.KernelIdeal.Take.wrapCol Cert.KernelIdeal.Take.wrapFlat
  unfold val_main_v0 val_main_v42 val_main_cst_6 val_main_v43 val_main_v41 val_main_v40 val_main_v37 val_main_v36 val_main_v33
    val_main_v32 val_main_c val_main_v35 val_main_v34 val_main_c_5 val_main_v31 val_main_v30 val_main_v11 val_main_v19 val_main_v46
  with_reducible rfl

end Cert.Bridge

end
-- ==== Proof.lean ====
/-
  A continuous-filter convolution layer on a graph (50000 nodes, 800000 edges, 128 channels): the kernel's program against
  its reference, over the extended reals.

  Both programs compute out = (h1 + agg) · lin2ᵀ + b with h1 = h · lin1ᵀ and agg the sum, over the edges ending in each
  node, of filter(edge) ⊙ h1[source(edge)], the filter a two-layer network with shifted-softplus activations on the edge's
  50 attributes, scaled by a cosine cutoff of the edge's length. They differ in five places, none of which changes a value:
  the kernel tiles the three dense stretches by rows; it folds π/10 to one word, which is exactly the reference's
  f32 (π) / 10; it writes −|d| as 0 − |d|; its softplus guard is the ordered "not equal" where the reference's is the
  unordered one, both false on equal arguments; and it gathers h1 with a take that fills out-of-range rows, which under the
  precondition (every source index a node) never fires. The gather and the scatter-add are one host operation each, the same
  in both programs, and are never opened.
  The three frames: the kernel's two are the generated frames; the reference's is its generated run with the result dropped.
-/
import proofs.«424846_j70944269795976_2_alg».proof.Defs
import proofs.«424846_j70944269795976_2_alg».proof.Proof.Gen.Kernel
import proofs.«424846_j70944269795976_2_alg».proof.Proof.Gen.Kernel.Skeleton
import proofs.«424846_j70944269795976_2_alg».proof.Proof.Gen.Kernel.Launch
import proofs.«424846_j70944269795976_2_alg».proof.Proof.Gen.Kernel.Points
import proofs.«424846_j70944269795976_2_alg».proof.Proof.Gen.Kernel.Frame
import proofs.«424846_j70944269795976_2_alg».proof.Proof.Gen.KernelIdeal
import proofs.«424846_j70944269795976_2_alg».proof.Proof.Gen.KernelIdeal.Skeleton
import proofs.«424846_j70944269795976_2_alg».proof.Proof.Gen.KernelIdeal.Launch
import proofs.«424846_j70944269795976_2_alg».proof.Proof.Gen.KernelIdeal.Points
import proofs.«424846_j70944269795976_2_alg».proof.Proof.Gen.KernelIdeal.Frame
import proofs.«424846_j70944269795976_2_alg».proof.Proof.Gen.ReferenceIdeal
import proofs.«424846_j70944269795976_2_alg».proof.Proof.Gen.Pre_finite_inputs
import proofs.«424846_j70944269795976_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read over the extended reals. -/
theorem preserves : Cert.preserves_Kernel_KernelIdeal := trivial

/-- From memories that agree on the arguments both programs end with the layer's output over the gathered rows. -/
theorem algebraic : Cert.algebraic_KernelIdeal_ReferenceIdeal := by
  intro m ρ m' ρ' hpre hagree
  refine ⟨fun c => Cert.KernelIdeal.KValue.totalOf
      (Host.gather Cert.KernelIdeal.gather_S50000x128_S800000x1_S800000x128_1_0_n_n_0_1_1128
        (Cert.KernelIdeal.KValue.h1Of (m ((c.tc : Thread Cert.KernelIdeal.nD Cert.KernelIdeal.τ).loc Cert.KernelIdeal.main_arg0)) (m ((c.tc : Thread Cert.KernelIdeal.nD Cert.KernelIdeal.τ).loc Cert.KernelIdeal.main_arg4))) (Cert.KernelIdeal.Take.wrapCol (Cert.KernelIdeal.PreRange.srcOf (m ((c.tc : Thread Cert.KernelIdeal.nD Cert.KernelIdeal.τ).loc Cert.KernelIdeal.main_arg1)))))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KValue.out_gather m ρ c (Cert.KernelIdeal.PreRange.src_range m hpre c)), (h c).2⟩)
      (Cert.KernelIdeal.Run.run_named m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Read.val_main_v50_eq, a0, a1, a2, a3, a4, a5, a6, a7, a8, a9, a10]
    exact Cert.Bridge.ref_total _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
